-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v89) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x40x64 : Shape := ⟨3, ![32, 40, 64]⟩
abbrev S128x30000x1x5 : Shape := ⟨4, ![128, 30000, 1, 5]⟩
abbrev S4x128 : Shape := ⟨2, ![4, 128]⟩
abbrev S4 : Shape := ⟨1, ![4]⟩
abbrev S_ : Shape := ⟨0, ![]⟩

class Facts : Prop where
  bcast_S_S128x30000x1x5 : S_.BroadcastsInDim S128x30000x1x5 (![] : Fin 0 → Fin S128x30000x1x5.rank)
  reducesTo_S128x30000x1x5_S_d0_1_2_3 : S128x30000x1x5.ReducesTo [0, 1, 2, 3] S_
  h_S_ : 0 < S_.numel
  bcast_S_S4x128 : S_.BroadcastsInDim S4x128 (![] : Fin 0 → Fin S4x128.rank)
  reducesTo_S4x128_S_d0_1 : S4x128.ReducesTo [0, 1] S_
  bcast_S_S4 : S_.BroadcastsInDim S4 (![] : Fin 0 → Fin S4.rank)
  reducesTo_S4_S_d0 : S4.ReducesTo [0] S_
  bcast_S_S32x40x64 : S_.BroadcastsInDim S32x40x64 (![] : Fin 0 → Fin S32x40x64.rank)
  reducesTo_S32x40x64_S_d0_1_2 : S32x40x64.ReducesTo [0, 1, 2] S_

variable [Facts]

def fn_part1 {F : FTy → Type} [FloatOps F] (main_arg0 : IVec S32x40x64 32) (main_v13 : IVec S_ 1) (main_v15 : IVec S32x40x64 1) (main_c_5 : IVec S_ 1) : IVec S_ 1 :=
  let main_v16 : IVec S_ 1 := (fun x v => Host.reduce IntOp.andi x v reducesTo_S32x40x64_S_d0_1_2 h_S_) main_v15 main_c_5
  let main_v17 : IVec S_ 1 := andi main_v13 main_v16
  let main_c_6 : IVec S_ 32 := constantI S_ 32 30000#32
  let main_v18 : IVec S32x40x64 32 := broadcastInDim S32x40x64 ![] bcast_S_S32x40x64 main_c_6
  let main_v19 : IVec S32x40x64 1 := cmpi .slt main_arg0 main_v18
  let main_c_7 : IVec S_ 1 := constantI S_ 1 1#1
  let main_v20 : IVec S_ 1 := (fun x v => Host.reduce IntOp.andi x v reducesTo_S32x40x64_S_d0_1_2 h_S_) main_v19 main_c_7
  let main_v21 : IVec S_ 1 := andi main_v17 main_v20
  main_v21

def fn {F : FTy → Type} [FloatOps F] (main_arg0 : IVec S32x40x64 32) (main_arg1 : FVec F S128x30000x1x5 .f32) (main_arg2 : FVec F S4x128 .f32) (main_arg3 : FVec F S4 .f32) : IVec S_ 1 :=
  let main_v0 : FVec F S128x30000x1x5 .f32 := Host.absf main_arg1
  let main_cst : FVec F S_ .f32 := constant S_ .f32 0x7F800000#32
  let main_v1 : FVec F S128x30000x1x5 .f32 := broadcastInDim S128x30000x1x5 ![] bcast_S_S128x30000x1x5 main_cst
  let main_v2 : IVec S128x30000x1x5 1 := cmpf .olt main_v0 main_v1
  let main_c : IVec S_ 1 := constantI S_ 1 1#1
  let main_v3 : IVec S_ 1 := (fun x v => Host.reduce IntOp.andi x v reducesTo_S128x30000x1x5_S_d0_1_2_3 h_S_) main_v2 main_c
  let main_v4 : FVec F S4x128 .f32 := Host.absf main_arg2
  let main_cst_0 : FVec F S_ .f32 := constant S_ .f32 0x7F800000#32
  let main_v5 : FVec F S4x128 .f32 := broadcastInDim S4x128 ![] bcast_S_S4x128 main_cst_0
  let main_v6 : IVec S4x128 1 := cmpf .olt main_v4 main_v5
  let main_c_1 : IVec S_ 1 := constantI S_ 1 1#1
  let main_v7 : IVec S_ 1 := (fun x v => Host.reduce IntOp.andi x v reducesTo_S4x128_S_d0_1 h_S_) main_v6 main_c_1
  let main_v8 : IVec S_ 1 := andi main_v3 main_v7
  let main_v9 : FVec F S4 .f32 := Host.absf main_arg3
  let main_cst_2 : FVec F S_ .f32 := constant S_ .f32 0x7F800000#32
  let main_v10 : FVec F S4 .f32 := broadcastInDim S4 ![] bcast_S_S4 main_cst_2
  let main_v11 : IVec S4 1 := cmpf .olt main_v9 main_v10
  let main_c_3 : IVec S_ 1 := constantI S_ 1 1#1
  let main_v12 : IVec S_ 1 := (fun x v => Host.reduce IntOp.andi x v reducesTo_S4_S_d0 h_S_) main_v11 main_c_3
  let main_v13 : IVec S_ 1 := andi main_v8 main_v12
  let main_c_4 : IVec S_ 32 := constantI S_ 32 0#32
  let main_v14 : IVec S32x40x64 32 := broadcastInDim S32x40x64 ![] bcast_S_S32x40x64 main_c_4
  let main_v15 : IVec S32x40x64 1 := cmpi .sge main_arg0 main_v14
  let main_c_5 : IVec S_ 1 := constantI S_ 1 1#1
  fn_part1 (F := F) main_arg0 main_v13 main_v15 main_c_5
-- ==== Kernel.lean ====
abbrev S32x40x64 : Shape := ⟨3, ![32, 40, 64]⟩
abbrev S128x30000x1x5 : Shape := ⟨4, ![128, 30000, 1, 5]⟩
abbrev S4x128 : Shape := ⟨2, ![4, 128]⟩
abbrev S4 : Shape := ⟨1, ![4]⟩
abbrev S32x2560 : Shape := ⟨2, ![32, 2560]⟩
abbrev S_ : Shape := ⟨0, ![]⟩
abbrev S128x30000x5 : Shape := ⟨3, ![128, 30000, 5]⟩
abbrev S30000x5x128 : Shape := ⟨3, ![30000, 5, 128]⟩
abbrev S30000x640 : Shape := ⟨2, ![30000, 640]⟩
abbrev S128x4 : Shape := ⟨2, ![128, 4]⟩
abbrev S1x4 : Shape := ⟨2, ![1, 4]⟩
abbrev S32x2560x1 : Shape := ⟨3, ![32, 2560, 1]⟩
abbrev S32x1x4 : Shape := ⟨3, ![32, 1, 4]⟩
abbrev S1x2560x1 : Shape := ⟨3, ![1, 2560, 1]⟩
abbrev S2000x640 : Shape := ⟨2, ![2000, 640]⟩
abbrev S1x1x4 : Shape := ⟨3, ![1, 1, 4]⟩
abbrev S2560x640 : Shape := ⟨2, ![2560, 640]⟩
abbrev S1x2000 : Shape := ⟨2, ![1, 2000]⟩
abbrev S2560x1 : Shape := ⟨2, ![2560, 1]⟩
abbrev S2560x2000 : Shape := ⟨2, ![2560, 2000]⟩
abbrev S2556x128 : Shape := ⟨2, ![2556, 128]⟩
abbrev S2560x128 : Shape := ⟨2, ![2560, 128]⟩
abbrev S128 : Shape := ⟨1, ![128]⟩
abbrev S1x128 : Shape := ⟨2, ![1, 128]⟩
abbrev S32x4 : Shape := ⟨2, ![32, 4]⟩

abbrev nBuf : Space → Nat
  | .hbm => 26
  | .vmem => 9
  | .smem => 0
  | _ => 0

abbrev bufTy : (tb : Table) → Fin (tcTables nBuf tb) → BufTy
  | .hbm, ⟨0, _⟩ => ⟨S32x40x64, .i32⟩
  | .hbm, ⟨1, _⟩ => ⟨S128x30000x1x5, .f32⟩
  | .hbm, ⟨2, _⟩ => ⟨S4x128, .f32⟩
  | .hbm, ⟨3, _⟩ => ⟨S4, .f32⟩
  | .hbm, ⟨4, _⟩ => ⟨S32x2560, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S32x2560, .i32⟩
  | .hbm, ⟨9, _⟩ => ⟨S32x2560, .i32⟩
  | .hbm, ⟨10, _⟩ => ⟨S_, .i32⟩
  | .hbm, ⟨11, _⟩ => ⟨S32x2560, .i32⟩
  | .hbm, ⟨12, _⟩ => ⟨S32x2560, .i32⟩
  | .hbm, ⟨13, _⟩ => ⟨S128x30000x5, .f32⟩
  | .hbm, ⟨14, _⟩ => ⟨S30000x5x128, .f32⟩
  | .hbm, ⟨15, _⟩ => ⟨S30000x640, .f32⟩
  | .hbm, ⟨16, _⟩ => ⟨S_, .f32⟩
  | .hbm, ⟨17, _⟩ => ⟨S30000x640, .f32⟩
  | .hbm, ⟨18, _⟩ => ⟨S30000x640, .f32⟩
  | .hbm, ⟨19, _⟩ => ⟨S30000x640, .bf16⟩
  | .hbm, ⟨20, _⟩ => ⟨S128x4, .f32⟩
  | .hbm, ⟨21, _⟩ => ⟨S128x4, .bf16⟩
  | .hbm, ⟨22, _⟩ => ⟨S1x4, .f32⟩
  | .hbm, ⟨23, _⟩ => ⟨S32x2560x1, .i32⟩
  | .hbm, ⟨24, _⟩ => ⟨S32x1x4, .f32⟩
  | .hbm, ⟨25, _⟩ => ⟨S32x4, .f32⟩
  | .local _ .vmem, ⟨0, _⟩ => ⟨S1x2560x1, .i32⟩
  | .local _ .vmem, ⟨1, _⟩ => ⟨S1x2560x1, .i32⟩
  | .local _ .vmem, ⟨2, _⟩ => ⟨S2000x640, .bf16⟩
  | .local _ .vmem, ⟨3, _⟩ => ⟨S2000x640, .bf16⟩
  | .local _ .vmem, ⟨4, _⟩ => ⟨S128x4, .bf16⟩
  | .local _ .vmem, ⟨5, _⟩ => ⟨S1x4, .f32⟩
  | .local _ .vmem, ⟨6, _⟩ => ⟨S1x1x4, .f32⟩
  | .local _ .vmem, ⟨7, _⟩ => ⟨S1x1x4, .f32⟩
  | .local _ .vmem, ⟨8, _⟩ => ⟨S2560x640, .f32⟩
  | _, _ => ⟨S32x40x64, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_c_0 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_cst : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![32, 15], ![false, false]⟩

def k0_cond2 (i : grid0.Coords) : BitVec 1 :=
  let arg1 : BitVec 32 := BitVec.ofNat 32 (i 1).val
  let c14_i32 : BitVec 32 := 14#32
  let v23 : BitVec 1 := Scalar.cmpi .eq arg1 c14_i32
  let v24 : BitVec 32 := Scalar.extui v23
  let c0_i32_9 : BitVec 32 := 0#32
  let v25 : BitVec 1 := Scalar.cmpi .ne v24 c0_i32_9
  v25

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2560x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2000x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S128x4 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x4 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1x4 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  shapeCasts_S32x40x64_S32x2560 : S32x40x64.ShapeCasts S32x2560
  bcast_S_S32x2560 : S_.BroadcastsInDim S32x2560 (![] : Fin 0 → Fin S32x2560.rank)
  shapeCasts_S128x30000x1x5_S128x30000x5 : S128x30000x1x5.ShapeCasts S128x30000x5
  transposes_S128x30000x5_S30000x5x128_1_2_0 : S128x30000x5.Transposes [1, 2, 0] S30000x5x128
  shapeCasts_S30000x5x128_S30000x640 : S30000x5x128.ShapeCasts S30000x640
  bcast_S_S30000x640 : S_.BroadcastsInDim S30000x640 (![] : Fin 0 → Fin S30000x640.rank)
  bitsLt_bf16_f32 : FTy.bits .bf16 < FTy.bits .f32
  transposes_S4x128_S128x4_1_0 : S4x128.Transposes [1, 0] S128x4
  shapeCasts_S4_S1x4 : S4.ShapeCasts S1x4
  bcast_S32x2560_S32x2560x1_0_1 : S32x2560.BroadcastsInDim S32x2560x1 (![0, 1] : Fin 2 → Fin S32x2560x1.rank)
  inb_S2560x640_S2560x640_0_0 : ∀ a, (![0, 0] : Fin 2 → Nat) a + S2560x640.size a ≤ S2560x640.size a
  h_S2560x640 : 0 < S2560x640.numel
  shapeCasts_S2560x640_S2560x640 : S2560x640.ShapeCasts S2560x640
  iota_S1x2000_d1_w32 : S1x2000.Iotas .tc 32 [1]
  inb_S1x2560x1_S1x2560x1_0_0_0 : ∀ a, (![0, 0, 0] : Fin 3 → Nat) a + S1x2560x1.size a ≤ S1x2560x1.size a
  h_S1x2560x1 : 0 < S1x2560x1.numel
  shapeCasts_S1x2560x1_S2560x1 : S1x2560x1.ShapeCasts S2560x1
  broadcasts_S2560x1_S2560x2000 : S2560x1.Broadcasts S2560x2000
  broadcasts_S1x2000_S2560x2000 : S1x2000.Broadcasts S2560x2000
  natLt_1_32 : 1 < 32
  inb_S2000x640_S2000x640_0_0 : ∀ a, (![0, 0] : Fin 2 → Nat) a + S2000x640.size a ≤ S2000x640.size a
  h_S2000x640 : 0 < S2000x640.numel
  shapeCasts_S2000x640_S2000x640 : S2000x640.ShapeCasts S2000x640
  inb_S2560x640_S2556x128_0_0 : ∀ a, (![0, 0] : Fin 2 → Nat) a + S2556x128.size a ≤ S2560x640.size a
  h_S2556x128 : 0 < S2556x128.numel
  inb_S2560x640_S2560x128_0_128 : ∀ a, (![0, 128] : Fin 2 → Nat) a + S2560x128.size a ≤ S2560x640.size a
  h_S2560x128 : 0 < S2560x128.numel
  rotates_S2560x128_d0 : S2560x128.Rotates 0 none
  slices_S2560x128_o0_0_S2556x128 : S2560x128.Slices ![0, 0] S2556x128
  inb_S2560x640_S2560x128_0_256 : ∀ a, (![0, 256] : Fin 2 → Nat) a + S2560x128.size a ≤ S2560x640.size a
  inb_S2560x640_S2560x128_0_384 : ∀ a, (![0, 384] : Fin 2 → Nat) a + S2560x128.size a ≤ S2560x640.size a
  inb_S2560x640_S2560x128_0_512 : ∀ a, (![0, 512] : Fin 2 → Nat) a + S2560x128.size a ≤ S2560x640.size a
  reduces_S2556x128_S128 : S2556x128.Reduces [0] S128
  shapeCasts_S128_S1x128 : S128.ShapeCasts S1x128
  inb_S128x4_S128x4_0_0 : ∀ a, (![0, 0] : Fin 2 → Nat) a + S128x4.size a ≤ S128x4.size a
  h_S128x4 : 0 < S128x4.numel
  shapeCasts_S128x4_S128x4 : S128x4.ShapeCasts S128x4
  inb_S1x4_S1x4_0_0 : ∀ a, (![0, 0] : Fin 2 → Nat) a + S1x4.size a ≤ S1x4.size a
  h_S1x4 : 0 < S1x4.numel
  shapeCasts_S1x4_S1x4 : S1x4.ShapeCasts S1x4
  shapeCasts_S1x4_S1x1x4 : S1x4.ShapeCasts S1x1x4
  inb_S1x1x4_S1x1x4_0_0_0 : ∀ a, (![0, 0, 0] : Fin 3 → Nat) a + S1x1x4.size a ≤ S1x1x4.size a
  h_S1x1x4 : 0 < S1x1x4.numel
  shapeCasts_S32x1x4_S32x4 : S32x1x4.ShapeCasts S32x4
  dot_S2560x2000_S2000x640_S2560x640_1_0_0_1_n_n_wf : DotDims.WF S2560x2000 S2000x640 S2560x640 [1] [0] [0] [1] [] []
  dot_S1x128_S128x4_S1x4_1_0_0_1_n_n_wf : DotDims.WF S1x128 S128x4 S1x4 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2560x1.size a ≤ S32x2560x1.size a
  hwx0_0 : ∀ i : grid0.Coords, EltTy.bits .i32 = 32 ∨ (Rect.block (s := S32x2560x1) S1x2560x1.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x640.size a ≤ S30000x640.size a
  hwx0_1 : ∀ i : grid0.Coords, EltTy.bits .bf16 = 32 ∨ (Rect.block (s := S30000x640) S2000x640.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x4.size a ≤ S128x4.size a
  hwx0_2 : ∀ i : grid0.Coords, EltTy.bits .bf16 = 32 ∨ (Rect.block (s := S128x4) S128x4.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x4.size a ≤ S1x4.size a
  hwx0_3 : ∀ i : grid0.Coords, EltTy.bits .f32 = 32 ∨ (Rect.block (s := S1x4) S1x4.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x4.size a ≤ S32x1x4.size a
  hwx0_4 : ∀ i : grid0.Coords, EltTy.bits .f32 = 32 ∨ (Rect.block (s := S32x1x4) S1x1x4.size (cc0_transform_4 i) (hinb0_4 i)).WholeWords (EltTy.packing .f32)

variable [Facts₀]

def dot_S2560x2000_S2000x640_S2560x640_1_0_0_1_n_n : DotDims S2560x2000 S2000x640 S2560x640 where
  lhsContracting := [1]
  rhsContracting := [0]
  lhsNonContracting := [0]
  rhsNonContracting := [1]
  lhsBatch := []
  rhsBatch := []
  wf := dot_S2560x2000_S2000x640_S2560x640_1_0_0_1_n_n_wf
def dot_S1x128_S128x4_S1x4_1_0_0_1_n_n : DotDims S1x128 S128x4 S1x4 where
  lhsContracting := [1]
  rhsContracting := [0]
  lhsNonContracting := [0]
  rhsNonContracting := [1]
  lhsBatch := []
  rhsBatch := []
  wf := dot_S1x128_S128x4_S1x4_1_0_0_1_n_n_wf

abbrev win0_0 : Pipeline.Window sig grid0 :=
  Pipeline.Window.ofSpec (Memref.whole main_v11) S1x2560x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S2000x640.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v9) S128x4.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v10) S1x4.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v12) S1x1x4.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S32x40x64 : Shape := ⟨3, ![32, 40, 64]⟩
abbrev S128x30000x1x5 : Shape := ⟨4, ![128, 30000, 1, 5]⟩
abbrev S4x128 : Shape := ⟨2, ![4, 128]⟩
abbrev S4 : Shape := ⟨1, ![4]⟩
abbrev S32x2560 : Shape := ⟨2, ![32, 2560]⟩
abbrev S128x30000x5 : Shape := ⟨3, ![128, 30000, 5]⟩
abbrev S_ : Shape := ⟨0, ![]⟩
abbrev S32x128x2556 : Shape := ⟨3, ![32, 128, 2556]⟩
abbrev S32x2556 : Shape := ⟨2, ![32, 2556]⟩
abbrev S32x2556x1 : Shape := ⟨3, ![32, 2556, 1]⟩
abbrev S32x2556x2 : Shape := ⟨3, ![32, 2556, 2]⟩
abbrev S128x32x2556 : Shape := ⟨3, ![128, 32, 2556]⟩
abbrev S32x128 : Shape := ⟨2, ![32, 128]⟩
abbrev S128x4 : Shape := ⟨2, ![128, 4]⟩
abbrev S32x4 : Shape := ⟨2, ![32, 4]⟩
abbrev S1x4 : Shape := ⟨2, ![1, 4]⟩

abbrev nBuf : Space → Nat
  | .hbm => 118
  | .vmem => 0
  | .smem => 0
  | _ => 0

abbrev bufTy : (tb : Table) → Fin (tcTables nBuf tb) → BufTy
  | .hbm, ⟨0, _⟩ => ⟨S32x40x64, .i32⟩
  | .hbm, ⟨1, _⟩ => ⟨S128x30000x1x5, .f32⟩
  | .hbm, ⟨2, _⟩ => ⟨S4x128, .f32⟩
  | .hbm, ⟨3, _⟩ => ⟨S4, .f32⟩
  | .hbm, ⟨4, _⟩ => ⟨S32x2560, .i32⟩
  | .hbm, ⟨5, _⟩ => ⟨S128x30000x5, .f32⟩
  | .hbm, ⟨6, _⟩ => ⟨S_, .f32⟩
  | .hbm, ⟨7, _⟩ => ⟨S32x128x2556, .f32⟩
  | .hbm, ⟨8, _⟩ => ⟨S32x2556, .i32⟩
  | .hbm, ⟨9, _⟩ => ⟨S_, .i32⟩
  | .hbm, ⟨10, _⟩ => ⟨S32x2556, .i32⟩
  | .hbm, ⟨11, _⟩ => ⟨S32x2556, .i1⟩
  | .hbm, ⟨12, _⟩ => ⟨S_, .i32⟩
  | .hbm, ⟨13, _⟩ => ⟨S32x2556, .i32⟩
  | .hbm, ⟨14, _⟩ => ⟨S32x2556, .i32⟩
  | .hbm, ⟨15, _⟩ => ⟨S32x2556, .i32⟩
  | .hbm, ⟨16, _⟩ => ⟨S_, .i32⟩
  | .hbm, ⟨17, _⟩ => ⟨S32x2556, .i32⟩
  | .hbm, ⟨18, _⟩ => ⟨S32x2556, .i32⟩
  | .hbm, ⟨19, _⟩ => ⟨S32x2556x1, .i32⟩
  | .hbm, ⟨20, _⟩ => ⟨S32x2556x1, .i32⟩
  | .hbm, ⟨21, _⟩ => ⟨S32x2556x2, .i32⟩
  | .hbm, ⟨22, _⟩ => ⟨S128x32x2556, .f32⟩
  | .hbm, ⟨23, _⟩ => ⟨S32x128x2556, .f32⟩
  | .hbm, ⟨24, _⟩ => ⟨S_, .f32⟩
  | .hbm, ⟨25, _⟩ => ⟨S32x128x2556, .f32⟩
  | .hbm, ⟨26, _⟩ => ⟨S32x128x2556, .f32⟩
  | .hbm, ⟨27, _⟩ => ⟨S32x128x2556, .f32⟩
  | .hbm, ⟨28, _⟩ => ⟨S32x2556, .i32⟩
  | .hbm, ⟨29, _⟩ => ⟨S_, .i32⟩
  | .hbm, ⟨30, _⟩ => ⟨S32x2556, .i32⟩
  | .hbm, ⟨31, _⟩ => ⟨S32x2556, .i1⟩
  | .hbm, ⟨32, _⟩ => ⟨S_, .i32⟩
  | .hbm, ⟨33, _⟩ => ⟨S32x2556, .i32⟩
  | .hbm, ⟨34, _⟩ => ⟨S32x2556, .i32⟩
  | .hbm, ⟨35, _⟩ => ⟨S32x2556, .i32⟩
  | .hbm, ⟨36, _⟩ => ⟨S_, .i32⟩
  | .hbm, ⟨37, _⟩ => ⟨S32x2556, .i32⟩
  | .hbm, ⟨38, _⟩ => ⟨S32x2556, .i32⟩
  | .hbm, ⟨39, _⟩ => ⟨S32x2556x1, .i32⟩
  | .hbm, ⟨40, _⟩ => ⟨S32x2556x1, .i32⟩
  | .hbm, ⟨41, _⟩ => ⟨S32x2556x2, .i32⟩
  | .hbm, ⟨42, _⟩ => ⟨S128x32x2556, .f32⟩
  | .hbm, ⟨43, _⟩ => ⟨S32x128x2556, .f32⟩
  | .hbm, ⟨44, _⟩ => ⟨S_, .f32⟩
  | .hbm, ⟨45, _⟩ => ⟨S32x128x2556, .f32⟩
  | .hbm, ⟨46, _⟩ => ⟨S32x128x2556, .f32⟩
  | .hbm, ⟨47, _⟩ => ⟨S32x128x2556, .f32⟩
  | .hbm, ⟨48, _⟩ => ⟨S32x2556, .i32⟩
  | .hbm, ⟨49, _⟩ => ⟨S_, .i32⟩
  | .hbm, ⟨50, _⟩ => ⟨S32x2556, .i32⟩
  | .hbm, ⟨51, _⟩ => ⟨S32x2556, .i1⟩
  | .hbm, ⟨52, _⟩ => ⟨S_, .i32⟩
  | .hbm, ⟨53, _⟩ => ⟨S32x2556, .i32⟩
  | .hbm, ⟨54, _⟩ => ⟨S32x2556, .i32⟩
  | .hbm, ⟨55, _⟩ => ⟨S32x2556, .i32⟩
  | .hbm, ⟨56, _⟩ => ⟨S_, .i32⟩
  | .hbm, ⟨57, _⟩ => ⟨S32x2556, .i32⟩
  | .hbm, ⟨58, _⟩ => ⟨S32x2556, .i32⟩
  | .hbm, ⟨59, _⟩ => ⟨S32x2556x1, .i32⟩
  | .hbm, ⟨60, _⟩ => ⟨S32x2556x1, .i32⟩
  | .hbm, ⟨61, _⟩ => ⟨S32x2556x2, .i32⟩
  | .hbm, ⟨62, _⟩ => ⟨S128x32x2556, .f32⟩
  | .hbm, ⟨63, _⟩ => ⟨S32x128x2556, .f32⟩
  | .hbm, ⟨64, _⟩ => ⟨S_, .f32⟩
  | .hbm, ⟨65, _⟩ => ⟨S32x128x2556, .f32⟩
  | .hbm, ⟨66, _⟩ => ⟨S32x128x2556, .f32⟩
  | .hbm, ⟨67, _⟩ => ⟨S32x128x2556, .f32⟩
  | .hbm, ⟨68, _⟩ => ⟨S32x2556, .i32⟩
  | .hbm, ⟨69, _⟩ => ⟨S_, .i32⟩
  | .hbm, ⟨70, _⟩ => ⟨S32x2556, .i32⟩
  | .hbm, ⟨71, _⟩ => ⟨S32x2556, .i1⟩
  | .hbm, ⟨72, _⟩ => ⟨S_, .i32⟩
  | .hbm, ⟨73, _⟩ => ⟨S32x2556, .i32⟩
  | .hbm, ⟨74, _⟩ => ⟨S32x2556, .i32⟩
  | .hbm, ⟨75, _⟩ => ⟨S32x2556, .i32⟩
  | .hbm, ⟨76, _⟩ => ⟨S_, .i32⟩
  | .hbm, ⟨77, _⟩ => ⟨S32x2556, .i32⟩
  | .hbm, ⟨78, _⟩ => ⟨S32x2556, .i32⟩
  | .hbm, ⟨79, _⟩ => ⟨S32x2556x1, .i32⟩
  | .hbm, ⟨80, _⟩ => ⟨S32x2556x1, .i32⟩
  | .hbm, ⟨81, _⟩ => ⟨S32x2556x2, .i32⟩
  | .hbm, ⟨82, _⟩ => ⟨S128x32x2556, .f32⟩
  | .hbm, ⟨83, _⟩ => ⟨S32x128x2556, .f32⟩
  | .hbm, ⟨84, _⟩ => ⟨S_, .f32⟩
  | .hbm, ⟨85, _⟩ => ⟨S32x128x2556, .f32⟩
  | .hbm, ⟨86, _⟩ => ⟨S32x128x2556, .f32⟩
  | .hbm, ⟨87, _⟩ => ⟨S32x128x2556, .f32⟩
  | .hbm, ⟨88, _⟩ => ⟨S32x2556, .i32⟩
  | .hbm, ⟨89, _⟩ => ⟨S_, .i32⟩
  | .hbm, ⟨90, _⟩ => ⟨S32x2556, .i32⟩
  | .hbm, ⟨91, _⟩ => ⟨S32x2556, .i1⟩
  | .hbm, ⟨92, _⟩ => ⟨S_, .i32⟩
  | .hbm, ⟨93, _⟩ => ⟨S32x2556, .i32⟩
  | .hbm, ⟨94, _⟩ => ⟨S32x2556, .i32⟩
  | .hbm, ⟨95, _⟩ => ⟨S32x2556, .i32⟩
  | .hbm, ⟨96, _⟩ => ⟨S_, .i32⟩
  | .hbm, ⟨97, _⟩ => ⟨S32x2556, .i32⟩
  | .hbm, ⟨98, _⟩ => ⟨S32x2556, .i32⟩
  | .hbm, ⟨99, _⟩ => ⟨S32x2556x1, .i32⟩
  | .hbm, ⟨100, _⟩ => ⟨S32x2556x1, .i32⟩
  | .hbm, ⟨101, _⟩ => ⟨S32x2556x2, .i32⟩
  | .hbm, ⟨102, _⟩ => ⟨S128x32x2556, .f32⟩
  | .hbm, ⟨103, _⟩ => ⟨S32x128x2556, .f32⟩
  | .hbm, ⟨104, _⟩ => ⟨S_, .f32⟩
  | .hbm, ⟨105, _⟩ => ⟨S32x128x2556, .f32⟩
  | .hbm, ⟨106, _⟩ => ⟨S32x128x2556, .f32⟩
  | .hbm, ⟨107, _⟩ => ⟨S32x128x2556, .f32⟩
  | .hbm, ⟨108, _⟩ => ⟨S_, .f32⟩
  | .hbm, ⟨109, _⟩ => ⟨S32x128x2556, .f32⟩
  | .hbm, ⟨110, _⟩ => ⟨S32x128x2556, .f32⟩
  | .hbm, ⟨111, _⟩ => ⟨S_, .f32⟩
  | .hbm, ⟨112, _⟩ => ⟨S32x128, .f32⟩
  | .hbm, ⟨113, _⟩ => ⟨S128x4, .f32⟩
  | .hbm, ⟨114, _⟩ => ⟨S32x4, .f32⟩
  | .hbm, ⟨115, _⟩ => ⟨S1x4, .f32⟩
  | .hbm, ⟨116, _⟩ => ⟨S32x4, .f32⟩
  | .hbm, ⟨117, _⟩ => ⟨S32x4, .f32⟩
  | _, _ => ⟨S32x40x64, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_c_3 : Ref sig .tc := ⟨.hbm, 29, rfl⟩
abbrev main_v20 : Ref sig .tc := ⟨.hbm, 30, rfl⟩
abbrev main_v21 : Ref sig .tc := ⟨.hbm, 31, rfl⟩
abbrev main_c_4 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_c_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_6 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_c_7 : Ref sig .tc := ⟨.hbm, 49, rfl⟩
abbrev main_v36 : Ref sig .tc := ⟨.hbm, 50, rfl⟩
abbrev main_v37 : Ref sig .tc := ⟨.hbm, 51, rfl⟩
abbrev main_c_8 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_c_9 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_cst_10 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_c_11 : Ref sig .tc := ⟨.hbm, 69, rfl⟩
abbrev main_v52 : Ref sig .tc := ⟨.hbm, 70, rfl⟩
abbrev main_v53 : Ref sig .tc := ⟨.hbm, 71, rfl⟩
abbrev main_c_12 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_c_13 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_cst_14 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_c_15 : Ref sig .tc := ⟨.hbm, 89, rfl⟩
abbrev main_v68 : Ref sig .tc := ⟨.hbm, 90, rfl⟩
abbrev main_v69 : Ref sig .tc := ⟨.hbm, 91, rfl⟩
abbrev main_c_16 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_c_17 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_cst_18 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_call0_cst : Ref sig .tc := ⟨.hbm, 108, rfl⟩
abbrev main_call0_v0 : Ref sig .tc := ⟨.hbm, 109, rfl⟩
abbrev main_v83 : Ref sig .tc := ⟨.hbm, 110, rfl⟩
abbrev main_cst_19 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩

abbrev nD : Nat := 1
abbrev τ : Topo := Topo.v7x

variable {F : FTy → Type} [FloatOps F]

class Facts₀ : Prop where
  shapeCasts_S32x40x64_S32x2560 : S32x40x64.ShapeCasts S32x2560
  shapeCasts_S128x30000x1x5_S128x30000x5 : S128x30000x1x5.ShapeCasts S128x30000x5
  bcast_S_S32x128x2556 : S_.BroadcastsInDim S32x128x2556 (![] : Fin 0 → Fin S32x128x2556.rank)
  slices_S32x2560_S32x2556_0_0 : S32x2560.Slices ![0, 0] S32x2556
  bcast_S_S32x2556 : S_.BroadcastsInDim S32x2556 (![] : Fin 0 → Fin S32x2556.rank)
  bcast_S32x2556_S32x2556x1_0_1 : S32x2556.BroadcastsInDim S32x2556x1 (![0, 1] : Fin 2 → Fin S32x2556x1.rank)
  concatenates_S32x2556x1_S32x2556x1_S32x2556x2_d2 : Shape.Concatenates [S32x2556x1, S32x2556x1] S32x2556x2 2
  transposes_S128x32x2556_S32x128x2556_1_0_2 : S128x32x2556.Transposes [1, 0, 2] S32x128x2556
  slices_S32x2560_S32x2556_0_1 : S32x2560.Slices ![0, 1] S32x2556
  slices_S32x2560_S32x2556_0_2 : S32x2560.Slices ![0, 2] S32x2556
  slices_S32x2560_S32x2556_0_3 : S32x2560.Slices ![0, 3] S32x2556
  slices_S32x2560_S32x2556_0_4 : S32x2560.Slices ![0, 4] S32x2556
  reducesTo_S32x128x2556_S32x128_d2 : S32x128x2556.ReducesTo [2] S32x128
  h_S_ : 0 < S_.numel
  transposes_S4x128_S128x4_1_0 : S4x128.Transposes [1, 0] S128x4
  bcast_S4_S1x4_1 : S4.BroadcastsInDim S1x4 (![1] : Fin 1 → Fin S1x4.rank)
  bcast_S1x4_S32x4_0_1 : S1x4.BroadcastsInDim S32x4 (![0, 1] : Fin 2 → Fin S32x4.rank)
  gather_S128x30000x5_S32x2556x2_S128x32x2556_0_12_n_n_12_2_12811_wf : GatherDims.WF S128x30000x5 S32x2556x2 S128x32x2556 [0] [1, 2] [] [1, 2] [] 2 ![128, 1, 1]
  dot_S32x128_S128x4_S32x4_1_0_0_1_n_n_wf : DotDims.WF S32x128 S128x4 S32x4 [1] [0] [0] [1] [] []

variable [Facts₀]

def gather_S128x30000x5_S32x2556x2_S128x32x2556_0_12_n_n_12_2_12811 : GatherDims S128x30000x5 S32x2556x2 S128x32x2556 where
  offsetDims := [0]
  collapsedSliceDims := [1, 2]
  operandBatchingDims := []
  startIndicesBatchingDims := []
  startIndexMap := [1, 2]
  indexVectorDim := 2
  sliceSizes := ![128, 1, 1]
  wf := gather_S128x30000x5_S32x2556x2_S128x32x2556_0_12_n_n_12_2_12811_wf
def dot_S32x128_S128x4_S32x4_1_0_0_1_n_n : DotDims S32x128 S128x4 S32x4 where
  lhsContracting := [1]
  rhsContracting := [0]
  lhsNonContracting := [0]
  rhsNonContracting := [1]
  lhsBatch := []
  rhsBatch := []
  wf := dot_S32x128_S128x4_S32x4_1_0_0_1_n_n_wf

class Facts : Prop extends Facts₀ where

variable [Facts]
-- ==== Proof.Spec.lean ====
/-
  The function both programs compute, written once over the argument arrays.

  A token sequence of a batch entry b is the 2560 ids tok[b, q / 64, q % 64]. The table K : [128, 30000, 1, 5] gives, for an
  output channel o, a vocabulary row v and a tap w, the weight K[o, v, 0, w]. A one-hot encoding of the ids convolved with K
  along the sequence is a row lookup: at position p < 2556 and channel o the convolution is the sum over the five taps w
  of K[o, id(b, p + w), 0, w], added in tap order. The result is clipped below at zero, maximised over the positions, and
  mapped through the affine layer: out[b, j] = (sum over o of pooled[b, o] * W[j, o]) + bias[j].
-/
import Idealize.ShloMosaic.PureOps.Ideal
import Idealize.ShloMosaic.Lib.ValueIdx

noncomputable section

namespace Cert.NgramConv

open Idealize.ShloMosaic Idealize.ShloMosaic.ValueIdx

abbrev STok : Shape := ⟨3, ![32, 40, 64]⟩
abbrev STab : Shape := ⟨4, ![128, 30000, 1, 5]⟩
abbrev SW : Shape := ⟨2, ![4, 128]⟩
abbrev SB : Shape := ⟨1, ![4]⟩
abbrev SOut : Shape := ⟨2, ![32, 4]⟩

/-- The id at position q of batch entry b's flattened sequence: entry (b, q / 64, q % 64) of the token array. -/
def idAt (tok : IVec STok 32) (b : Fin 32) (q : Fin 2560) : BitVec 32 :=
  tok (ix3 b ⟨q.val / 64, by have := q.isLt; omega⟩ ⟨q.val % 64, Nat.mod_lt _ (by norm_num)⟩)

/-- The table row an id selects (an id in [0, 30000) is its own row). -/
def rowOf (t : BitVec 32) : Fin 30000 := ⟨t.toNat % 30000, Nat.mod_lt _ (by norm_num)⟩

/-- Tap w's weight for channel o at position p: the table at the row of the id w places further on. -/
def tap (tok : IVec STok 32) (K : FVec Ideal STab .f32) (b : Fin 32) (p : Fin 2556) (o : Fin 128) (w : Fin 5) : EReal :=
  K (ix4 o (rowOf (idAt tok b ⟨p.val + w.val, by have := p.isLt; have := w.isLt; omega⟩)) 0 w)

/-- The convolution at (b, p, o): the five taps added in tap order. -/
def conv (tok : IVec STok 32) (K : FVec Ideal STab .f32) (b : Fin 32) (p : Fin 2556) (o : Fin 128) : EReal :=
  tap tok K b p o 0 + tap tok K b p o 1 + tap tok K b p o 2 + tap tok K b p o 3 + tap tok K b p o 4

/-- The pooled feature at (b, o): the maximum over the positions of the convolution clipped below at zero, the fold
    started from the reduction's initial word (minus infinity). -/
def pooled (tok : IVec STok 32) (K : FVec Ideal STab .f32) (b : Fin 32) (o : Fin 128) : EReal :=
  (Finset.univ : Finset (Fin 2556)).fold max (Ideal.ofBits .f32 0xFF800000#32)
    (fun p => max (conv tok K b p o) (Ideal.ofBits .f32 0x00000000#32))

/-- The result at (b, j): the pooled features through the affine layer. -/
def out (tok : IVec STok 32) (K : FVec Ideal STab .f32) (W : FVec Ideal SW .f32) (bias : FVec Ideal SB .f32) :
    SOut.Idx → EReal :=
  fun i => (∑ o : Fin 128, pooled tok K (i 0) o * W (ix2 (i 1) o)) + bias (ix1 (i 1))

/-- The domain of the claim: every token is a row of the table. -/
def InRange (tok : IVec STok 32) : Prop := ∀ i, 0 ≤ (tok i).toInt ∧ (tok i).toInt < 30000

end Cert.NgramConv

end
-- ==== Proof.PreRange.lean ====
/-
  The precondition read back. The printed predicate is the conjunction of five all-reductions by "and" of one-bit
  arrays; the last two compare every token, read signed, with 0 (at least) and with 30000 (below). When the predicate
  is one, each conjunct is one, so every entry of each compared array is one, and an entry of a signed comparison being
  one is the order of the two words' signed values: every token lies in [0, 30000).
-/
import proofs.«414875_j5703716569443_3_alg».proof.Proof.Spec
import proofs.«414875_j5703716569443_3_alg».proof.Proof.Gen.Pre_finite_inputs
import Idealize.ShloMosaic.Lib.ReduceAll

namespace Cert.NgramConv

open Idealize.ShloMosaic Idealize.ShloMosaic.ValueIdx

/-- The predicate being one everywhere puts every token in [0, 30000). -/
theorem inRange_of_pre (tok : IVec STok 32) (K : FVec Ideal STab .f32) (W : FVec Ideal SW .f32) (bias : FVec Ideal SB .f32)
    (h : Cert.Pre_finite_inputs.fn (F := Ideal) tok K W bias = fun _ => 1#1) : InRange tok := by
  -- a rank-0 array has one index
  haveI : Subsingleton Cert.Pre_finite_inputs.S_.Idx := ⟨fun _ _ => funext fun d => d.elim0⟩
  have h0 := congrFun h ix0
  dsimp only [Cert.Pre_finite_inputs.fn, Cert.Pre_finite_inputs.fn_part1] at h0
  -- the outer conjunction: (the first four conjuncts) and (all tokens below 30000)
  obtain ⟨h17, h20⟩ := IntOp.andi_eq_one.1 h0
  -- the inner one: (the three finiteness conjuncts) and (all tokens at least 0)
  obtain ⟨-, h16⟩ := IntOp.andi_eq_one.1 h17
  intro i
  have hge := Host.reduce_andi_all _ _ _ _ _ h16 i
  have hlt := Host.reduce_andi_all _ _ _ _ _ h20 i
  -- an entry of the compared array is the comparison of the token with the broadcast literal
  change IntOp.cmpi .sge (tok i) 0#32 = 1#1 at hge
  change IntOp.cmpi .slt (tok i) 30000#32 = 1#1 at hlt
  have e0 : (0#32 : BitVec 32).toInt = 0 := by decide
  have e1 : (30000#32 : BitVec 32).toInt = 30000 := by decide
  exact ⟨e0 ▸ IntOp.cmpi_sge.1 hge, e1 ▸ IntOp.cmpi_slt.1 hlt⟩

end Cert.NgramConv
-- ==== Proof.LibGatherHost3.lean ====
/-
  Gathers out of a rank-3 table, and the host's reductions over the last axis of a rank-3 array, read at an index.

  A table T : [N, B, C] gathered at a column idx : [R, 1] of start indices with offset_dims = [1, 2],
  collapsed_slice_dims = [0], start_index_map = [0], index_vector_dim = 1 and slice sizes [1, B, C] has the result
  [R, B, C] whose slab e is a slab of the table: read at (e, j, l) it is the table at (r, j, l), where r is the start index
  idx[e, 0] read as a signed integer and clamped into [0, N − 1]. The first axis is start-indexed and collapsed, so its slice
  has extent one and the clamp's upper end is N − 1; the other two axes are the offset axes, not start-indexed, so their
  slices start at 0 and the result's coordinates on them are the table's.

  A table T : [A, B, C] gathered at idx : [M, 3], one full coordinate triple per result entry, with offset_dims = [],
  collapsed_slice_dims = [0, 1, 2], start_index_map = [0, 1, 2], index_vector_dim = 1 and slice sizes [1, 1, 1] has the
  result [M]: read at n it is the table at the triple idx[n, 0], idx[n, 1], idx[n, 2], each read signed and clamped into its
  axis's range.

  The host's maximum and sum over the last axis of an [a, b, c] array, read at (i, j), are the fold of max and the sum over
  the entries (i, j, l), from the initial value. A matrix [a, c] placed on axes 0 and 2 of [a, 1, c], and a rank-3 array
  with a unit axis broadcast along it, keep their entries.
-/
import Idealize.ShloMosaic.PureOps.ShapeOps
import Idealize.ShloMosaic.PureOps.Ideal.Laws
import Idealize.ShloMosaic.Lib.ValueIdx
import Idealize.ShloMosaic.Lib.IdealHost
import Idealize.ShloMosaic.Lib.Pipeline.Value

noncomputable section

namespace Idealize.ShloMosaic.GatherHost3

open Idealize.ShloMosaic Idealize.ShloMosaic.ValueIdx

/-- Equal lists have equal entries at equal positions. -/
theorem getElem_of_eq {β : Type} {l l' : List β} {n n' : Nat} (h : n < l.length) (hl : l = l') (hn : n = n')
    (h' : n' < l'.length) : l[n] = l'[n'] := by
  subst hl hn; rfl

/-- A list that is one entry long has that entry at every position it has. -/
theorem getElem_of_eq_singleton {β : Type} (l : List β) (b : β) (n : Nat) (h : n < l.length) (hl : l = [b]) : l[n] = b := by
  subst hl
  have : n = 0 := by simpa using h
  subst this; rfl

/-! ## A gather of whole slabs of a rank-3 table -/

/-- THE SLAB GATHER READ AT (e, j, l). For dimension numbers over a table [N, B, C], start indices [R, 1] and result
    [R, B, C] with offset axes 1 and 2, collapsed axis 0, no batching axes, start index map [0] and the index vector on
    axis 1: the table at slab idx[e, 0], read signed and clamped into [0, N − 1], coordinates (j, l). -/
theorem gather_slabs {α : Type} {N B C R w : Nat} (d : GatherDims ⟨3, ![N, B, C]⟩ ⟨2, ![R, 1]⟩ ⟨3, ![R, B, C]⟩)
    (hoff : d.offsetDims = [1, 2]) (hcoll : d.collapsedSliceDims = [0]) (hob : d.operandBatchingDims = [])
    (hsim : d.startIndexMap = [0]) (hivd : d.indexVectorDim = 1)
    (T : (⟨3, ![N, B, C]⟩ : Shape).Idx → α) (idx : IVec ⟨2, ![R, 1]⟩ w) (e : Fin R) (j : Fin B) (l : Fin C) (hN : 0 < N) :
    Host.gather d T idx (ix3 e j l) = T (ix3 ⟨min (idx (ix2 e 0)).toInt.toNat (N - 1), by omega⟩ j l) := by
  unfold Host.gather
  congr 1
  funext a
  apply Fin.ext
  have hb : ∀ a, a ∉ d.operandBatchingDims := fun a => by rw [hob]; exact List.not_mem_nil
  have hsk : d.sKept = [1, 2] := by
    show Shape.kept _ (d.collapsedSliceDims ++ d.operandBatchingDims) = _
    rw [hcoll, hob]; rfl
  match a with
  | ⟨0, _⟩ =>
    -- the slab axis: start-indexed and collapsed, so the coordinate is the clamped start alone
    have hk : (0 : Fin 3) ∉ d.sKept := by rw [hsk]; simp
    have hm : (0 : Fin 3) ∈ d.startIndexMap := by rw [hsim]; exact List.mem_singleton.mpr rfl
    have hsl : d.sliceSizes 0 = 1 := d.slice_collapsed 0 (by rw [hcoll]; exact List.mem_singleton.mpr rfl)
    show d.start (ix3 e j l) idx 0 + d.batchCoord (ix3 e j l) 0 + d.offCoord (ix3 e j l) 0 = _
    rw [GatherDims.batchCoord_eq_zero _ _ _ (hb 0), GatherDims.offCoord_eq_zero _ _ _ hk]
    simp only [Nat.add_zero]
    unfold GatherDims.start
    rw [dif_pos hm]
    show min (idx _).toInt.toNat (N - d.sliceSizes 0) = min (idx (ix2 e 0)).toInt.toNat (N - 1)
    rw [hsl]
    congr 3
    congr 1
    -- the start-indices index of result index (e, j, l), component 0, is (e, 0)
    funext b
    match b with
    | ⟨0, _⟩ =>
      unfold GatherDims.siIdx
      rw [dif_neg (by rw [hivd]; simp)]
      unfold GatherDims.siCoord
      apply Fin.ext
      simp only [Fin.val_cast]
      have hbd : d.batchDims = [0] := by
        show Shape.kept _ d.offsetDims = _
        rw [hoff]; rfl
      rw [getElem_of_eq_singleton d.batchDims 0 _ _ hbd]
      rfl
    | ⟨1, _⟩ =>
      unfold GatherDims.siIdx
      rw [dif_pos (by rw [hivd])]
      apply Fin.ext
      show List.idxOf (0 : Fin 3) d.startIndexMap = 0
      rw [hsim]; simp
  | ⟨1, _⟩ =>
    -- the first offset axis: not start-indexed, so the coordinate is the result's on axis 1
    have hk : (1 : Fin 3) ∈ d.sKept := by rw [hsk]; simp
    have hm : (1 : Fin 3) ∉ d.startIndexMap := by rw [hsim]; simp
    have hpos : d.sKept.idxOf (1 : Fin 3) = 0 := by rw [hsk]; rfl
    show d.start (ix3 e j l) idx 1 + d.batchCoord (ix3 e j l) 1 + d.offCoord (ix3 e j l) 1 = j.val
    rw [GatherDims.batchCoord_eq_zero _ _ _ (hb 1)]
    unfold GatherDims.start GatherDims.offCoord
    rw [dif_neg hm, dif_pos hk]
    simp only [Nat.add_zero, Nat.zero_add]
    rw [getElem_of_eq _ hoff hpos (Nat.zero_lt_succ 1)]
    rfl
  | ⟨2, _⟩ =>
    -- the second offset axis: not start-indexed, so the coordinate is the result's on axis 2
    have hk : (2 : Fin 3) ∈ d.sKept := by rw [hsk]; simp
    have hm : (2 : Fin 3) ∉ d.startIndexMap := by rw [hsim]; simp
    have hpos : d.sKept.idxOf (2 : Fin 3) = 1 := by rw [hsk]; rfl
    show d.start (ix3 e j l) idx 2 + d.batchCoord (ix3 e j l) 2 + d.offCoord (ix3 e j l) 2 = l.val
    rw [GatherDims.batchCoord_eq_zero _ _ _ (hb 2)]
    unfold GatherDims.start GatherDims.offCoord
    rw [dif_neg hm, dif_pos hk]
    simp only [Nat.add_zero, Nat.zero_add]
    rw [getElem_of_eq _ hoff hpos (Nat.lt_succ_self 1)]
    rfl

/-! ## A gather of single entries of a rank-3 table by coordinate triples -/

/-- THE POINT GATHER READ AT n. For dimension numbers over a table [A, B, C], start indices [M, 3] and result [M] with no
    offset axes, all three axes collapsed, no batching axes, start index map [0, 1, 2] and the index vector on axis 1: the
    table at the triple (idx[n, 0], idx[n, 1], idx[n, 2]), each component read signed and clamped into its axis's range. -/
theorem gather_points {α : Type} {A B C M w : Nat} (d : GatherDims ⟨3, ![A, B, C]⟩ ⟨2, ![M, 3]⟩ ⟨1, ![M]⟩)
    (hoff : d.offsetDims = []) (hcoll : d.collapsedSliceDims = [0, 1, 2]) (hob : d.operandBatchingDims = [])
    (hsim : d.startIndexMap = [0, 1, 2]) (hivd : d.indexVectorDim = 1)
    (T : (⟨3, ![A, B, C]⟩ : Shape).Idx → α) (idx : IVec ⟨2, ![M, 3]⟩ w) (n : Fin M)
    (hA : 0 < A) (hB : 0 < B) (hC : 0 < C) :
    Host.gather d T idx (ix1 n)
      = T (ix3 ⟨min (idx (ix2 n 0)).toInt.toNat (A - 1), by omega⟩ ⟨min (idx (ix2 n 1)).toInt.toNat (B - 1), by omega⟩
          ⟨min (idx (ix2 n 2)).toInt.toNat (C - 1), by omega⟩) := by
  unfold Host.gather
  congr 1
  funext a
  apply Fin.ext
  have hb : ∀ a, a ∉ d.operandBatchingDims := fun a => by rw [hob]; exact List.not_mem_nil
  have hsk : d.sKept = [] := by
    show Shape.kept _ (d.collapsedSliceDims ++ d.operandBatchingDims) = _
    rw [hcoll, hob]; rfl
  have hk : ∀ a, a ∉ d.sKept := fun a => by rw [hsk]; exact List.not_mem_nil
  -- the start-indices index of result index n, component k, is (n, k)
  have hsi : ∀ (c : Fin d.startIndexMap.length) (k : Fin 3), c.val = k.val → d.siIdx (ix1 n) c = ix2 n k := by
    intro c k hck
    funext b
    match b with
    | ⟨0, _⟩ =>
      unfold GatherDims.siIdx
      rw [dif_neg (by rw [hivd]; simp)]
      unfold GatherDims.siCoord
      apply Fin.ext
      simp only [Fin.val_cast]
      have hbd : d.batchDims = [0] := by
        show Shape.kept _ d.offsetDims = _
        rw [hoff]; rfl
      rw [getElem_of_eq_singleton d.batchDims 0 _ _ hbd]
      rfl
    | ⟨1, _⟩ =>
      unfold GatherDims.siIdx
      rw [dif_pos (by rw [hivd])]
      apply Fin.ext
      exact hck
  match a with
  | ⟨0, _⟩ =>
    have hm : (0 : Fin 3) ∈ d.startIndexMap := by rw [hsim]; simp
    have hsl : d.sliceSizes 0 = 1 := d.slice_collapsed 0 (by rw [hcoll]; simp)
    show d.start (ix1 n) idx 0 + d.batchCoord (ix1 n) 0 + d.offCoord (ix1 n) 0 = _
    rw [GatherDims.batchCoord_eq_zero _ _ _ (hb 0), GatherDims.offCoord_eq_zero _ _ _ (hk 0)]
    simp only [Nat.add_zero]
    unfold GatherDims.start
    rw [dif_pos hm, hsi _ 0 (by show List.idxOf (0 : Fin 3) d.startIndexMap = 0; rw [hsim]; rfl)]
    show min (idx _).toInt.toNat (A - d.sliceSizes 0) = min (idx (ix2 n 0)).toInt.toNat (A - 1)
    rw [hsl]
  | ⟨1, _⟩ =>
    have hm : (1 : Fin 3) ∈ d.startIndexMap := by rw [hsim]; simp
    have hsl : d.sliceSizes 1 = 1 := d.slice_collapsed 1 (by rw [hcoll]; simp)
    show d.start (ix1 n) idx 1 + d.batchCoord (ix1 n) 1 + d.offCoord (ix1 n) 1 = _
    rw [GatherDims.batchCoord_eq_zero _ _ _ (hb 1), GatherDims.offCoord_eq_zero _ _ _ (hk 1)]
    simp only [Nat.add_zero]
    unfold GatherDims.start
    rw [dif_pos hm, hsi _ 1 (by show List.idxOf (1 : Fin 3) d.startIndexMap = 1; rw [hsim]; rfl)]
    show min (idx _).toInt.toNat (B - d.sliceSizes 1) = min (idx (ix2 n 1)).toInt.toNat (B - 1)
    rw [hsl]
  | ⟨2, _⟩ =>
    have hm : (2 : Fin 3) ∈ d.startIndexMap := by rw [hsim]; simp
    have hsl : d.sliceSizes 2 = 1 := d.slice_collapsed 2 (by rw [hcoll]; simp)
    show d.start (ix1 n) idx 2 + d.batchCoord (ix1 n) 2 + d.offCoord (ix1 n) 2 = _
    rw [GatherDims.batchCoord_eq_zero _ _ _ (hb 2), GatherDims.offCoord_eq_zero _ _ _ (hk 2)]
    simp only [Nat.add_zero]
    unfold GatherDims.start
    rw [dif_pos hm, hsi _ 2 (by show List.idxOf (2 : Fin 3) d.startIndexMap = 2; rw [hsim]; rfl)]
    show min (idx _).toInt.toNat (C - d.sliceSizes 2) = min (idx (ix2 n 2)).toInt.toNat (C - 1)
    rw [hsl]

/-! ## The host's reductions over the last axis of a rank-3 array, at the ideal values -/

/-- A shape fact of the host's reduction over the last axis of [a, b, c] is also the kernel-side one: the result [a, b]
    has an axis. -/
theorem reduces_of_reducesTo {a b c : ℕ} (h' : (⟨3, ![a, b, c]⟩ : Shape).ReducesTo [2] ⟨2, ![a, b]⟩) :
    (⟨3, ![a, b, c]⟩ : Shape).Reduces [2] ⟨2, ![a, b]⟩ :=
  ⟨h'.1, Nat.zero_lt_two, h'.2⟩

/-- The index over (i, j) with l put on the dropped last axis is (i, j, l). -/
theorem lift_lastAxis {a b c : ℕ} (h : (⟨3, ![a, b, c]⟩ : Shape).Reduces [2] ⟨2, ![a, b]⟩) (i : Fin a) (j : Fin b) (l : Fin c) :
    h.lift (ix2 i j) l = ix3 i j l := by
  funext ax; apply Fin.ext
  match ax with
  | ⟨0, _⟩ => rfl
  | ⟨1, _⟩ => rfl
  | ⟨2, _⟩ => rfl

/-- The host's maximum over the last axis, read at (i, j), is the fold of max, from the initial value, over the entries
    (i, j, l). -/
theorem hostReduce_maximumf_last {a b c : ℕ} {φ : FTy} {u : Shape} (x : (⟨3, ![a, b, c]⟩ : Shape).Idx → Ideal φ)
    (init : u.Idx → Ideal φ) (h' : (⟨3, ![a, b, c]⟩ : Shape).ReducesTo [2] ⟨2, ![a, b]⟩) (hu : 0 < u.numel)
    (i : Fin a) (j : Fin b) :
    Host.reduce (FloatOps.maximumf (F := Ideal) (φ := φ)) x init h' hu (ix2 i j)
      = (Finset.univ : Finset (Fin c)).fold max (init (Shape.Idx.first hu)) (fun l => x (ix3 i j l)) := by
  have h := reduces_of_reducesTo h'
  refine (Host.reduce_eq_fold_single (FloatOps.maximumf (F := Ideal) (φ := φ)) x init h' h hu (ix2 i j)).trans ?_
  show (Finset.univ : Finset (Fin c)).fold max (init (Shape.Idx.first hu)) (fun l => x (h.lift (ix2 i j) l)) = _
  exact congrArg (fun f : Fin c → EReal => (Finset.univ : Finset (Fin c)).fold max (init (Shape.Idx.first hu)) f)
    (funext fun l => congrArg x (lift_lastAxis h i j l))

/-- The host's sum over the last axis, read at (i, j), is the initial value plus the sum of the entries (i, j, l). -/
theorem hostReduceAdd_last {a b c : ℕ} {φ : FTy} {u : Shape} (x : FVec Ideal ⟨3, ![a, b, c]⟩ φ)
    (init : u.Idx → Ideal φ) (h' : (⟨3, ![a, b, c]⟩ : Shape).ReducesTo [2] ⟨2, ![a, b]⟩) (hu : 0 < u.numel)
    (i : Fin a) (j : Fin b) :
    Host.reduceAdd x init h' hu (ix2 i j) = init (Shape.Idx.first hu) + ∑ l : Fin c, x (ix3 i j l) := by
  have h := reduces_of_reducesTo h'
  show Ideal.hostReduceAdd h' x (init (Shape.Idx.first hu)) (ix2 i j) = _
  rw [Ideal.hostReduceAdd_single h' h]
  show _ + ∑ l : Fin c, x (h.lift (ix2 i j) l) = _
  exact congrArg _ (Finset.sum_congr rfl fun l _ => congrArg x (lift_lastAxis h i j l))

/-! ## Unit axes added by a host broadcast, and broadcasts along a unit axis -/

variable {α : Type}

/-- A vector [a] placed on axis 0 of [a, 1] reads, at (i, u), the vector's entry i. -/
theorem broadcastInDim_a_a1_apply {a : ℕ} (x : (⟨1, ![a]⟩ : Shape).Idx → α)
    (h : (⟨1, ![a]⟩ : Shape).BroadcastsInDim ⟨2, ![a, 1]⟩ ![0]) (i : Fin a) (u : Fin 1) :
    broadcastInDim ⟨2, ![a, 1]⟩ ![0] h x (ix2 i u) = x (ix1 i) := by
  refine broadcastInDim_apply _ h x (ix2 i u) (ix1 i) fun ax => ?_
  match ax with
  | ⟨0, _⟩ =>
    show i.val = if a = 1 then 0 else i.val
    split
    · have := i.isLt; omega
    · rfl

/-- A matrix [a, b] placed on axes 0 and 1 of [a, b, 1] reads, at (i, j, u), the matrix's entry (i, j). -/
theorem broadcastInDim_ab_ab1_apply {a b : ℕ} (x : (⟨2, ![a, b]⟩ : Shape).Idx → α)
    (h : (⟨2, ![a, b]⟩ : Shape).BroadcastsInDim ⟨3, ![a, b, 1]⟩ ![0, 1]) (i : Fin a) (j : Fin b) (u : Fin 1) :
    broadcastInDim ⟨3, ![a, b, 1]⟩ ![0, 1] h x (ix3 i j u) = x (ix2 i j) := by
  refine broadcastInDim_apply _ h x (ix3 i j u) (ix2 i j) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl

/-- A matrix [a, c] placed on axes 0 and 2 of [a, 1, c] reads, at (i, u, l), the matrix's entry (i, l). -/
theorem broadcastInDim_ac_a1c_apply {a c : ℕ} (x : (⟨2, ![a, c]⟩ : Shape).Idx → α)
    (h : (⟨2, ![a, c]⟩ : Shape).BroadcastsInDim ⟨3, ![a, 1, c]⟩ ![0, 2]) (i : Fin a) (u : Fin 1) (l : Fin c) :
    broadcastInDim ⟨3, ![a, 1, c]⟩ ![0, 2] h x (ix3 i u l) = x (ix2 i l) := by
  refine broadcastInDim_apply _ h x (ix3 i u l) (ix2 i l) fun ax => ?_
  match ax with
  | ⟨0, _⟩ =>
    show i.val = if a = 1 then 0 else i.val
    split
    · have := i.isLt; omega
    · rfl
  | ⟨1, _⟩ =>
    show l.val = if c = 1 then 0 else l.val
    split
    · have := l.isLt; omega
    · rfl

/-- An [a, 1, c] array broadcast axis by axis to [a, b, c] reads, at (i, j, l), the operand at (i, 0, l). -/
theorem broadcastInDim_a1c_abc_apply {a b c : ℕ} (x : (⟨3, ![a, 1, c]⟩ : Shape).Idx → α)
    (h : (⟨3, ![a, 1, c]⟩ : Shape).BroadcastsInDim ⟨3, ![a, b, c]⟩ ![0, 1, 2]) (i : Fin a) (j : Fin b) (l : Fin c) :
    broadcastInDim ⟨3, ![a, b, c]⟩ ![0, 1, 2] h x (ix3 i j l) = x (ix3 i (0 : Fin 1) l) := by
  refine broadcastInDim_apply _ h x (ix3 i j l) (ix3 i (0 : Fin 1) l) fun ax => ?_
  match ax with
  | ⟨0, _⟩ =>
    show i.val = if a = 1 then 0 else i.val
    split
    · have := i.isLt; omega
    · rfl
  | ⟨1, _⟩ => rfl
  | ⟨2, _⟩ =>
    show l.val = if c = 1 then 0 else l.val
    split
    · have := l.isLt; omega
    · rfl

/-- An [a, b, 1] array broadcast axis by axis to [a, b, c] reads, at (i, j, l), the operand at (i, j, 0). -/
theorem broadcastInDim_ab1_abc_apply {a b c : ℕ} (x : (⟨3, ![a, b, 1]⟩ : Shape).Idx → α)
    (h : (⟨3, ![a, b, 1]⟩ : Shape).BroadcastsInDim ⟨3, ![a, b, c]⟩ ![0, 1, 2]) (i : Fin a) (j : Fin b) (l : Fin c) :
    broadcastInDim ⟨3, ![a, b, c]⟩ ![0, 1, 2] h x (ix3 i j l) = x (ix3 i j (0 : Fin 1)) := by
  refine broadcastInDim_apply _ h x (ix3 i j l) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

end Idealize.ShloMosaic.GatherHost3

end
-- ==== Proof.LibGatherPairs.lean ====
/-
  A gather of single entries out of a rank-3 table, one entry per offset coordinate and pair of start indices.

  A table T : [A, N, C] gathered at start indices idx : [R, S, 2] — a pair (row, column) per batch position (b, p) — with
  offset_dims = [0], collapsed_slice_dims = [1, 2], start_index_map = [1, 2], index_vector_dim = 2 and slice sizes
  [A, 1, 1] has the result [A, R, S]: read at (o, b, p) it is the table at (o, r, c), where r is the start index
  idx[b, p, 0] and c is idx[b, p, 1], each read as a signed integer and clamped into its axis's range. Axis 0 is the
  offset axis, not start-indexed, so its slice starts at 0 and the result's coordinate on it is the table's; axes 1 and 2
  are start-indexed and collapsed, so their slices have extent one and the clamps' upper ends are N − 1 and C − 1.
-/
import Idealize.ShloMosaic.PureOps.ShapeOps
import Idealize.ShloMosaic.Lib.ValueIdx

noncomputable section

namespace Idealize.ShloMosaic.GatherPairs

open Idealize.ShloMosaic Idealize.ShloMosaic.ValueIdx

/-- Equal lists have equal entries at equal positions. -/
theorem getElem_of_eq {β : Type} {l l' : List β} {n n' : Nat} (h : n < l.length) (hl : l = l') (hn : n = n')
    (h' : n' < l'.length) : l[n] = l'[n'] := by
  subst hl hn; rfl

/-- THE PAIR GATHER READ AT (o, b, p). For dimension numbers over a table [A, N, C], start indices [R, S, 2] and result
    [A, R, S] with offset axis 0, collapsed axes 1 and 2, no batching axes, start index map [1, 2] and the index vector on
    axis 2: the table at offset coordinate o, row idx[b, p, 0] and column idx[b, p, 1], each start index read signed and
    clamped into its axis's range. -/
theorem gather_pairs {α : Type} {A N C R S w : Nat}
    (d : GatherDims ⟨3, ![A, N, C]⟩ ⟨3, ![R, S, 2]⟩ ⟨3, ![A, R, S]⟩)
    (hoff : d.offsetDims = [0]) (hcoll : d.collapsedSliceDims = [1, 2]) (hob : d.operandBatchingDims = [])
    (hsim : d.startIndexMap = [1, 2]) (hivd : d.indexVectorDim = 2)
    (T : (⟨3, ![A, N, C]⟩ : Shape).Idx → α) (idx : IVec ⟨3, ![R, S, 2]⟩ w) (o : Fin A) (b : Fin R) (p : Fin S)
    (hN : 0 < N) (hC : 0 < C) :
    Host.gather d T idx (ix3 o b p)
      = T (ix3 o ⟨min (idx (ix3 b p 0)).toInt.toNat (N - 1), by omega⟩
          ⟨min (idx (ix3 b p 1)).toInt.toNat (C - 1), by omega⟩) := by
  unfold Host.gather
  congr 1
  funext a
  apply Fin.ext
  have hb : ∀ a, a ∉ d.operandBatchingDims := fun a => by rw [hob]; exact List.not_mem_nil
  have hsk : d.sKept = [0] := by
    show Shape.kept _ (d.collapsedSliceDims ++ d.operandBatchingDims) = _
    rw [hcoll, hob]; rfl
  have hbd : d.batchDims = [1, 2] := by
    show Shape.kept _ d.offsetDims = _
    rw [hoff]; rfl
  have hsik : d.siKept = [0, 1] := by
    show (List.finRange 3).filter (fun x => decide (x.val ≠ d.indexVectorDim)) = _
    rw [hivd]; rfl
  -- the start-indices index of result index (o, b, p), component k, is (b, p, k)
  have hsi : ∀ (c : Fin d.startIndexMap.length) (k : Fin 2), c.val = k.val → d.siIdx (ix3 o b p) c = ix3 b p k := by
    intro c k hck
    funext e
    match e with
    | ⟨0, h0⟩ =>
      unfold GatherDims.siIdx
      rw [dif_neg (by rw [hivd]; simp)]
      unfold GatherDims.siCoord
      apply Fin.ext
      simp only [Fin.val_cast]
      have hpos : List.idxOf (⟨0, h0⟩ : Fin (⟨3, ![R, S, 2]⟩ : Shape).rank) d.siKept = 0 := by rw [hsik]; rfl
      rw [getElem_of_eq _ hbd hpos (Nat.zero_lt_succ 1)]
      rfl
    | ⟨1, h1⟩ =>
      unfold GatherDims.siIdx
      rw [dif_neg (by rw [hivd]; simp)]
      unfold GatherDims.siCoord
      apply Fin.ext
      simp only [Fin.val_cast]
      have hpos : List.idxOf (⟨1, h1⟩ : Fin (⟨3, ![R, S, 2]⟩ : Shape).rank) d.siKept = 1 := by rw [hsik]; rfl
      rw [getElem_of_eq _ hbd hpos (Nat.lt_succ_self 1)]
      rfl
    | ⟨2, _⟩ =>
      unfold GatherDims.siIdx
      rw [dif_pos (by rw [hivd])]
      apply Fin.ext
      exact hck
  match a with
  | ⟨0, _⟩ =>
    -- the offset axis: not start-indexed, so the coordinate is the result's on axis 0
    have hk : (0 : Fin 3) ∈ d.sKept := by rw [hsk]; simp
    have hm : (0 : Fin 3) ∉ d.startIndexMap := by rw [hsim]; simp
    have hpos : d.sKept.idxOf (0 : Fin 3) = 0 := by rw [hsk]; rfl
    show d.start (ix3 o b p) idx 0 + d.batchCoord (ix3 o b p) 0 + d.offCoord (ix3 o b p) 0 = o.val
    rw [GatherDims.batchCoord_eq_zero _ _ _ (hb 0)]
    unfold GatherDims.start GatherDims.offCoord
    rw [dif_neg hm, dif_pos hk]
    simp only [Nat.add_zero, Nat.zero_add]
    rw [getElem_of_eq _ hoff hpos (Nat.zero_lt_succ 0)]
    rfl
  | ⟨1, _⟩ =>
    -- the row axis: start-indexed and collapsed, so the coordinate is the clamped first start index alone
    have hk : (1 : Fin 3) ∉ d.sKept := by rw [hsk]; simp
    have hm : (1 : Fin 3) ∈ d.startIndexMap := by rw [hsim]; simp
    have hsl : d.sliceSizes 1 = 1 := d.slice_collapsed 1 (by rw [hcoll]; simp)
    show d.start (ix3 o b p) idx 1 + d.batchCoord (ix3 o b p) 1 + d.offCoord (ix3 o b p) 1 = _
    rw [GatherDims.batchCoord_eq_zero _ _ _ (hb 1), GatherDims.offCoord_eq_zero _ _ _ hk]
    simp only [Nat.add_zero]
    unfold GatherDims.start
    rw [dif_pos hm, hsi _ 0 (by show List.idxOf (1 : Fin 3) d.startIndexMap = 0; rw [hsim]; rfl)]
    show min (idx _).toInt.toNat (N - d.sliceSizes 1) = min (idx (ix3 b p 0)).toInt.toNat (N - 1)
    rw [hsl]
  | ⟨2, _⟩ =>
    -- the column axis: start-indexed and collapsed, so the coordinate is the clamped second start index alone
    have hk : (2 : Fin 3) ∉ d.sKept := by rw [hsk]; simp
    have hm : (2 : Fin 3) ∈ d.startIndexMap := by rw [hsim]; simp
    have hsl : d.sliceSizes 2 = 1 := d.slice_collapsed 2 (by rw [hcoll]; simp)
    show d.start (ix3 o b p) idx 2 + d.batchCoord (ix3 o b p) 2 + d.offCoord (ix3 o b p) 2 = _
    rw [GatherDims.batchCoord_eq_zero _ _ _ (hb 2), GatherDims.offCoord_eq_zero _ _ _ hk]
    simp only [Nat.add_zero]
    unfold GatherDims.start
    rw [dif_pos hm, hsi _ 1 (by show List.idxOf (2 : Fin 3) d.startIndexMap = 1; rw [hsim]; rfl)]
    show min (idx _).toInt.toNat (C - d.sliceSizes 2) = min (idx (ix3 b p 1)).toInt.toNat (C - 1)
    rw [hsl]

end Idealize.ShloMosaic.GatherPairs

end
-- ==== Proof.RefTap.lean ====
/-
  The reference's five tap stages, each read at an index.

  For tap w the reference slices the flattened ids at offset w, wraps a negative id by adding the vocabulary size (the
  identity on ids that are rows of the table), pairs each id with the constant column w, gathers the reshaped table
  [128, 30000, 5] at those pairs and transposes the result to [32, 128, 2556]. Read at (b, o, p), the stage is the table's
  weight K[o, row, 0, w] at the row of the id w places past p: under the domain's bound the wrap, the signed reading and
  the gather's clamps all leave the id as it is, and an id below 30000 is its own remainder modulo 30000.
-/
import proofs.«414875_j5703716569443_3_alg».proof.Proof.Spec
import proofs.«414875_j5703716569443_3_alg».proof.Proof.Gen.ReferenceIdeal.Read
import proofs.«414875_j5703716569443_3_alg».proof.Proof.LibGatherPairs
import proofs.«414875_j5703716569443_3_alg».proof.Proof.LibGatherHost3

noncomputable section

namespace Cert.NgramConv.Ref

open Idealize.ShloMosaic Idealize.ShloMosaic.ValueIdx Cert.NgramConv Cert.ReferenceIdeal Cert.ReferenceIdeal.Gen
  Cert.ReferenceIdeal.Read

/-- A 32-bit word that is nonnegative read signed has the same value read unsigned. -/
theorem toNat_of_nonneg (t : BitVec 32) (h : 0 ≤ t.toInt) : t.toInt.toNat = t.toNat := by
  rw [BitVec.toInt_eq_toNat_cond] at h ⊢
  have := t.isLt
  split at h <;> split <;> omega

/-- The wrap of negative ids (add the vocabulary size where the id is below zero) leaves a nonnegative id as it is. -/
theorem wrap_id (x : BitVec 32) (h : 0 ≤ x.toInt) :
    Scalar.select (IntOp.cmpi .slt x 0#32) (IntOp.addi x 30000#32) x = x := by
  have hs : x.slt 0#32 = false := by
    rw [BitVec.slt]; simp; exact h
  have hc : IntOp.cmpi .slt x 0#32 = 0#1 := by
    show BitVec.ofBool (x.slt 0#32) = 0#1
    rw [hs]; rfl
  rw [hc, select_zero]

/-- The token array flattened to [32, 2560], at (b, q), is the id at position q of batch entry b. -/
theorem tok_flat (tok : IVec STok 32) (b : Fin 32) (q : Fin 2560) :
    val_main_v0 (F := Ideal) tok (ix2 b q) = idAt tok b q := by
  rw [val_main_v0_apply]
  unfold idAt
  congr 1
  funext a
  have hb := b.isLt
  have hq := q.isLt
  match a with
  | ⟨0, _⟩ => exact Fin.ext (by show (b.val * 2560 + q.val) / 2560 = b.val; omega)
  | ⟨1, _⟩ => exact Fin.ext (by show (b.val * 2560 + q.val) / 64 % 40 = q.val / 64; omega)
  | ⟨2, _⟩ => exact Fin.ext (by show (b.val * 2560 + q.val) % 64 = q.val % 64; omega)

/-- Two [32, 2556, 1] columns joined along the last axis, at (b, p, 0): the first column's entry. -/
theorem cat0 (a c : S32x2556x1.Idx → BitVec 32) (b : Fin 32) (p : Fin 2556) :
    concatenate S32x2556x2 2 [⟨S32x2556x1, a⟩, ⟨S32x2556x1, c⟩] concatenates_S32x2556x1_S32x2556x1_S32x2556x2_d2
        (ix3 b p (0 : Fin 2))
      = a (ix3 b p (0 : Fin 1)) :=
  concatenate_pair_apply_left (t := S32x2556x2) 2 a c _ (ix3 b p (0 : Fin 2)) rfl (ix3 b p (0 : Fin 1)) (fun e => match e with
    | ⟨0, _⟩ => rfl
    | ⟨1, _⟩ => rfl
    | ⟨2, _⟩ => rfl)

/-- Two [32, 2556, 1] columns joined along the last axis, at (b, p, 1): the second column's entry. -/
theorem cat1 (a c : S32x2556x1.Idx → BitVec 32) (b : Fin 32) (p : Fin 2556) :
    concatenate S32x2556x2 2 [⟨S32x2556x1, a⟩, ⟨S32x2556x1, c⟩] concatenates_S32x2556x1_S32x2556x1_S32x2556x2_d2
        (ix3 b p (1 : Fin 2))
      = c (ix3 b p (0 : Fin 1)) :=
  concatenate_pair_apply_right (t := S32x2556x2) 2 a c _ (ix3 b p (1 : Fin 2)) rfl rfl (ix3 b p (0 : Fin 1)) (fun e he => match e, he with
    | ⟨0, _⟩, _ => rfl
    | ⟨1, _⟩, _ => rfl
    | ⟨2, _⟩, he => absurd rfl he) rfl

/-- The gather of one tap. At start indices whose pair at (b, p) is an id t that is a row of the table and the tap
    number w, the gathered entry (o, b, p) of the table reshaped to [128, 30000, 5] is K[o, row of t, 0, w]: the clamps are
    the identity on a row below 30000 and a column below 5, and the reshape drops the unit axis. -/
theorem gather_tap (K : FVec Ideal STab .f32) (I : IVec S32x2556x2 32) (o : Fin 128) (b : Fin 32) (p : Fin 2556)
    (t : BitVec 32) (w : Fin 5) (ht : 0 ≤ t.toInt ∧ t.toInt < 30000)
    (h0 : I (ix3 b p (0 : Fin 2)) = t) (h1 : (I (ix3 b p (1 : Fin 2))).toInt = (w.val : Int)) :
    Host.gather gather_S128x30000x5_S32x2556x2_S128x32x2556_0_12_n_n_12_2_12811 (val_main_v1 (F := Ideal) K) I (ix3 o b p)
      = K (ix4 o (rowOf t) 0 w) := by
  refine (GatherPairs.gather_pairs _ rfl rfl rfl rfl rfl _ I o b p (by norm_num) (by norm_num)).trans ?_
  rw [val_main_v1_apply]
  congr 1
  have hn := toNat_of_nonneg t ht.1
  have hlt : t.toNat < 30000 := by have := ht.2; omega
  have hw := w.isLt
  have ho := o.isLt
  have er : min (I (ix3 b p (0 : Fin 2))).toInt.toNat (30000 - 1) = t.toNat := by rw [h0]; omega
  have ec : min (I (ix3 b p (1 : Fin 2))).toInt.toNat (5 - 1) = w.val := by rw [h1]; omega
  funext a
  match a with
  | ⟨0, _⟩ =>
    apply Fin.ext
    show ((o.val * 30000 + min (I (ix3 b p (0 : Fin 2))).toInt.toNat (30000 - 1)) * 5
      + min (I (ix3 b p (1 : Fin 2))).toInt.toNat (5 - 1)) / 150000 = o.val
    rw [er, ec]; omega
  | ⟨1, _⟩ =>
    apply Fin.ext
    show ((o.val * 30000 + min (I (ix3 b p (0 : Fin 2))).toInt.toNat (30000 - 1)) * 5
      + min (I (ix3 b p (1 : Fin 2))).toInt.toNat (5 - 1)) / 5 % 30000 = t.toNat % 30000
    rw [er, ec]; omega
  | ⟨2, _⟩ => rfl
  | ⟨3, _⟩ =>
    apply Fin.ext
    show ((o.val * 30000 + min (I (ix3 b p (0 : Fin 2))).toInt.toNat (30000 - 1)) * 5
      + min (I (ix3 b p (1 : Fin 2))).toInt.toNat (5 - 1)) % 5 = w.val
    rw [er, ec]; omega

/-- ONE TAP'S STAGE, over its operands. With s the slice of the ids that reads, at (b, p), the id w places past p, z and c
    the zero and vocabulary-size splats, and k the splat of the tap number: the table gathered at the pairs (wrapped id,
    k), at (o, b, p), is tap w's weight at (b, p, o). -/
theorem tap_stage (tok : IVec STok 32) (K : FVec Ideal STab .f32) (hr : InRange tok) (w : Fin 5)
    (s z c k : S32x2556.Idx → BitVec 32) (b : Fin 32) (o : Fin 128) (p : Fin 2556)
    (hs : s (ix2 b p) = idAt tok b ⟨p.val + w.val, by have := p.isLt; have := w.isLt; omega⟩)
    (hz : z (ix2 b p) = 0#32) (hc : c (ix2 b p) = 30000#32) (hk : (k (ix2 b p)).toInt = (w.val : Int)) :
    Host.gather gather_S128x30000x5_S32x2556x2_S128x32x2556_0_12_n_n_12_2_12811 (val_main_v1 (F := Ideal) K)
        (concatenate S32x2556x2 2
          [⟨S32x2556x1, broadcastInDim S32x2556x1 ![0, 1] bcast_S32x2556_S32x2556x1_0_1
              (select (cmpi .slt s z) (addi s c) s)⟩,
            ⟨S32x2556x1, broadcastInDim S32x2556x1 ![0, 1] bcast_S32x2556_S32x2556x1_0_1 k⟩]
          concatenates_S32x2556x1_S32x2556x1_S32x2556x2_d2) (ix3 o b p)
      = tap tok K b p o w := by
  unfold tap
  refine gather_tap K _ o b p _ w (hr _) ?_ ?_
  · -- the pair's first component: the wrapped id, which is the id
    rw [cat0, GatherHost3.broadcastInDim_ab_ab1_apply]
    show Scalar.select (IntOp.cmpi .slt (s (ix2 b p)) (z (ix2 b p))) (IntOp.addi (s (ix2 b p)) (c (ix2 b p))) (s (ix2 b p)) = _
    rw [hz, hc, hs]
    exact wrap_id _ (hr _).1
  · -- the pair's second component: the tap number
    rw [cat1, GatherHost3.broadcastInDim_ab_ab1_apply]
    exact hk

/-- The first slice of the flattened ids at (b, p) is the id at position p. -/
theorem slice0 (tok : IVec STok 32) (b : Fin 32) (p : Fin 2556) :
    val_main_v3 (F := Ideal) tok (ix2 b p)
      = idAt tok b ⟨p.val + (0 : Fin 5).val, by have := p.isLt; show p.val + 0 < 2560; omega⟩ := by
  have hi : idx_main_v3 (ix2 b p) = ix2 b ⟨p.val + 0, by have := p.isLt; omega⟩ := funext fun a => match a with
    | ⟨0, _⟩ => rfl
    | ⟨1, _⟩ => Fin.ext (by show p.val = p.val + 0; omega)
  exact (val_main_v3_apply tok _).trans ((congrArg (val_main_v0 (F := Ideal) tok) hi).trans (tok_flat tok b _))

/-- Tap 0's gathered and transposed stage at (b, o, p) is the table's weight for channel o at the row of the id
    at p, column 0. -/
theorem tap0_stage (tok : IVec STok 32) (K : FVec Ideal STab .f32) (hr : InRange tok) (b : Fin 32) (o : Fin 128)
    (p : Fin 2556) : val_main_v15 (F := Ideal) tok K (ix3 b o p) = tap tok K b p o 0 := by
  have hi : idx_main_v15 (ix3 b o p) = ix3 o b p := funext fun a => match a with
    | ⟨0, _⟩ => rfl
    | ⟨1, _⟩ => rfl
    | ⟨2, _⟩ => rfl
  rw [val_main_v15_apply, hi]
  unfold val_main_v14 val_main_v13 val_main_v11 val_main_v12 val_main_v8 val_main_v5 val_main_v7
  exact tap_stage tok K hr 0 _ _ _ _ b o p (slice0 tok b p)
    ((val_main_v4_apply _).trans (val_main_c_apply _))
    ((val_main_v6_apply _).trans (val_main_c_0_apply _))
    (by rw [val_main_v10_apply, val_main_v9_apply, val_main_c_1_apply]; rfl)

/-- The second slice of the flattened ids at (b, p) is the id 1 place past p. -/
theorem slice1 (tok : IVec STok 32) (b : Fin 32) (p : Fin 2556) :
    val_main_v19 (F := Ideal) tok (ix2 b p)
      = idAt tok b ⟨p.val + (1 : Fin 5).val, by have := p.isLt; show p.val + 1 < 2560; omega⟩ := by
  have hi : idx_main_v19 (ix2 b p) = ix2 b ⟨p.val + 1, by have := p.isLt; omega⟩ := funext fun a => match a with
    | ⟨0, _⟩ => rfl
    | ⟨1, _⟩ => Fin.ext (by show 1 + p.val = p.val + 1; omega)
  exact (val_main_v19_apply tok _).trans ((congrArg (val_main_v0 (F := Ideal) tok) hi).trans (tok_flat tok b _))

/-- Tap 1's gathered and transposed stage at (b, o, p) is the table's weight for channel o at the row of the id
    1 past p, column 1. -/
theorem tap1_stage (tok : IVec STok 32) (K : FVec Ideal STab .f32) (hr : InRange tok) (b : Fin 32) (o : Fin 128)
    (p : Fin 2556) : val_main_v31 (F := Ideal) tok K (ix3 b o p) = tap tok K b p o 1 := by
  have hi : idx_main_v31 (ix3 b o p) = ix3 o b p := funext fun a => match a with
    | ⟨0, _⟩ => rfl
    | ⟨1, _⟩ => rfl
    | ⟨2, _⟩ => rfl
  rw [val_main_v31_apply, hi]
  unfold val_main_v30 val_main_v29 val_main_v27 val_main_v28 val_main_v24 val_main_v21 val_main_v23
  exact tap_stage tok K hr 1 _ _ _ _ b o p (slice1 tok b p)
    ((val_main_v20_apply _).trans (val_main_c_3_apply _))
    ((val_main_v22_apply _).trans (val_main_c_4_apply _))
    (by rw [val_main_v26_apply, val_main_v25_apply, val_main_c_5_apply]; rfl)

/-- The third slice of the flattened ids at (b, p) is the id 2 places past p. -/
theorem slice2 (tok : IVec STok 32) (b : Fin 32) (p : Fin 2556) :
    val_main_v35 (F := Ideal) tok (ix2 b p)
      = idAt tok b ⟨p.val + (2 : Fin 5).val, by have := p.isLt; show p.val + 2 < 2560; omega⟩ := by
  have hi : idx_main_v35 (ix2 b p) = ix2 b ⟨p.val + 2, by have := p.isLt; omega⟩ := funext fun a => match a with
    | ⟨0, _⟩ => rfl
    | ⟨1, _⟩ => Fin.ext (by show 2 + p.val = p.val + 2; omega)
  exact (val_main_v35_apply tok _).trans ((congrArg (val_main_v0 (F := Ideal) tok) hi).trans (tok_flat tok b _))

/-- Tap 2's gathered and transposed stage at (b, o, p) is the table's weight for channel o at the row of the id
    2 past p, column 2. -/
theorem tap2_stage (tok : IVec STok 32) (K : FVec Ideal STab .f32) (hr : InRange tok) (b : Fin 32) (o : Fin 128)
    (p : Fin 2556) : val_main_v47 (F := Ideal) tok K (ix3 b o p) = tap tok K b p o 2 := by
  have hi : idx_main_v47 (ix3 b o p) = ix3 o b p := funext fun a => match a with
    | ⟨0, _⟩ => rfl
    | ⟨1, _⟩ => rfl
    | ⟨2, _⟩ => rfl
  rw [val_main_v47_apply, hi]
  unfold val_main_v46 val_main_v45 val_main_v43 val_main_v44 val_main_v40 val_main_v37 val_main_v39
  exact tap_stage tok K hr 2 _ _ _ _ b o p (slice2 tok b p)
    ((val_main_v36_apply _).trans (val_main_c_7_apply _))
    ((val_main_v38_apply _).trans (val_main_c_8_apply _))
    (by rw [val_main_v42_apply, val_main_v41_apply, val_main_c_9_apply]; rfl)

/-- The fourth slice of the flattened ids at (b, p) is the id 3 places past p. -/
theorem slice3 (tok : IVec STok 32) (b : Fin 32) (p : Fin 2556) :
    val_main_v51 (F := Ideal) tok (ix2 b p)
      = idAt tok b ⟨p.val + (3 : Fin 5).val, by have := p.isLt; show p.val + 3 < 2560; omega⟩ := by
  have hi : idx_main_v51 (ix2 b p) = ix2 b ⟨p.val + 3, by have := p.isLt; omega⟩ := funext fun a => match a with
    | ⟨0, _⟩ => rfl
    | ⟨1, _⟩ => Fin.ext (by show 3 + p.val = p.val + 3; omega)
  exact (val_main_v51_apply tok _).trans ((congrArg (val_main_v0 (F := Ideal) tok) hi).trans (tok_flat tok b _))

/-- Tap 3's gathered and transposed stage at (b, o, p) is the table's weight for channel o at the row of the id
    3 past p, column 3. -/
theorem tap3_stage (tok : IVec STok 32) (K : FVec Ideal STab .f32) (hr : InRange tok) (b : Fin 32) (o : Fin 128)
    (p : Fin 2556) : val_main_v63 (F := Ideal) tok K (ix3 b o p) = tap tok K b p o 3 := by
  have hi : idx_main_v63 (ix3 b o p) = ix3 o b p := funext fun a => match a with
    | ⟨0, _⟩ => rfl
    | ⟨1, _⟩ => rfl
    | ⟨2, _⟩ => rfl
  rw [val_main_v63_apply, hi]
  unfold val_main_v62 val_main_v61 val_main_v59 val_main_v60 val_main_v56 val_main_v53 val_main_v55
  exact tap_stage tok K hr 3 _ _ _ _ b o p (slice3 tok b p)
    ((val_main_v52_apply _).trans (val_main_c_11_apply _))
    ((val_main_v54_apply _).trans (val_main_c_12_apply _))
    (by rw [val_main_v58_apply, val_main_v57_apply, val_main_c_13_apply]; rfl)

/-- The fifth slice of the flattened ids at (b, p) is the id 4 places past p. -/
theorem slice4 (tok : IVec STok 32) (b : Fin 32) (p : Fin 2556) :
    val_main_v67 (F := Ideal) tok (ix2 b p)
      = idAt tok b ⟨p.val + (4 : Fin 5).val, by have := p.isLt; show p.val + 4 < 2560; omega⟩ := by
  have hi : idx_main_v67 (ix2 b p) = ix2 b ⟨p.val + 4, by have := p.isLt; omega⟩ := funext fun a => match a with
    | ⟨0, _⟩ => rfl
    | ⟨1, _⟩ => Fin.ext (by show 4 + p.val = p.val + 4; omega)
  exact (val_main_v67_apply tok _).trans ((congrArg (val_main_v0 (F := Ideal) tok) hi).trans (tok_flat tok b _))

/-- Tap 4's gathered and transposed stage at (b, o, p) is the table's weight for channel o at the row of the id
    4 past p, column 4. -/
theorem tap4_stage (tok : IVec STok 32) (K : FVec Ideal STab .f32) (hr : InRange tok) (b : Fin 32) (o : Fin 128)
    (p : Fin 2556) : val_main_v79 (F := Ideal) tok K (ix3 b o p) = tap tok K b p o 4 := by
  have hi : idx_main_v79 (ix3 b o p) = ix3 o b p := funext fun a => match a with
    | ⟨0, _⟩ => rfl
    | ⟨1, _⟩ => rfl
    | ⟨2, _⟩ => rfl
  rw [val_main_v79_apply, hi]
  unfold val_main_v78 val_main_v77 val_main_v75 val_main_v76 val_main_v72 val_main_v69 val_main_v71
  exact tap_stage tok K hr 4 _ _ _ _ b o p (slice4 tok b p)
    ((val_main_v68_apply _).trans (val_main_c_15_apply _))
    ((val_main_v70_apply _).trans (val_main_c_16_apply _))
    (by rw [val_main_v74_apply, val_main_v73_apply, val_main_c_17_apply]; rfl)

end Cert.NgramConv.Ref

end
-- ==== Proof.RefValue.lean ====
/-
  The reference program's result is the function of the specification.

  The running sum of the five tap stages, each entering times one onto a sum started at zero, is the convolution; the
  maximum with zero and the host's maximum over the positions, from the reduction's initial word, is the pooled feature;
  the contraction with the transposed weight matrix plus the broadcast bias is the affine layer.
-/
import proofs.«414875_j5703716569443_3_alg».proof.Proof.Spec
import proofs.«414875_j5703716569443_3_alg».proof.Proof.Gen.ReferenceIdeal.Read
import proofs.«414875_j5703716569443_3_alg».proof.Proof.LibGatherHost3
import proofs.«414875_j5703716569443_3_alg».proof.Proof.RefTap

noncomputable section

namespace Cert.NgramConv.Ref

open Idealize.ShloMosaic Idealize.ShloMosaic.ValueIdx Cert.NgramConv Cert.ReferenceIdeal Cert.ReferenceIdeal.Gen
  Cert.ReferenceIdeal.Read

/-- The f32 word 0x3F800000 is the number one. -/
theorem ofBits_one_f32 : Ideal.ofBits .f32 0x3F800000#32 = 1 := by
  simp [Ideal.ofBits, Ideal.ieee, -EReal.coe_mul]; norm_num

/-- The running sum after the fifth tap, at (b, o, p), is the convolution there: each tap enters times one, and the sum
    starts from zero. -/
theorem conv_stage (tok : IVec STok 32) (K : FVec Ideal STab .f32) (hr : InRange tok) (b : Fin 32) (o : Fin 128)
    (p : Fin 2556) : val_main_v82 (F := Ideal) tok K (ix3 b o p) = conv tok K b p o := by
  rw [val_main_v82_apply, val_main_v66_apply, val_main_v50_apply, val_main_v34_apply, val_main_v18_apply,
    val_main_v81_apply, val_main_v65_apply, val_main_v49_apply, val_main_v33_apply, val_main_v17_apply,
    val_main_v80_apply, val_main_v64_apply, val_main_v48_apply, val_main_v32_apply, val_main_v16_apply,
    val_main_v2_apply, val_main_cst_18_apply, val_main_cst_14_apply, val_main_cst_10_apply, val_main_cst_6_apply,
    val_main_cst_2_apply, val_main_cst_apply,
    tap0_stage tok K hr, tap1_stage tok K hr, tap2_stage tok K hr, tap3_stage tok K hr, tap4_stage tok K hr]
  show Ideal.ofBits .f32 0x00000000#32 + Ideal.ofBits .f32 0x3F800000#32 * tap tok K b p o 0
      + Ideal.ofBits .f32 0x3F800000#32 * tap tok K b p o 1 + Ideal.ofBits .f32 0x3F800000#32 * tap tok K b p o 2
      + Ideal.ofBits .f32 0x3F800000#32 * tap tok K b p o 3 + Ideal.ofBits .f32 0x3F800000#32 * tap tok K b p o 4 = _
  rw [Ideal.ofBits_zero_f32, ofBits_one_f32]
  simp only [one_mul, zero_add]
  rfl

/-- The reduction's result at (b, o) is the pooled feature: the maximum over the positions of the clipped convolution,
    from the reduction's initial word. -/
theorem pooled_stage (tok : IVec STok 32) (K : FVec Ideal STab .f32) (hr : InRange tok) (b : Fin 32) (o : Fin 128) :
    val_main_v84 (F := Ideal) tok K (ix2 b o) = pooled tok K b o := by
  unfold val_main_v84 pooled
  refine (GatherHost3.hostReduce_maximumf_last (val_main_v83 (F := Ideal) tok K) (val_main_cst_19 (F := Ideal))
    reducesTo_S32x128x2556_S32x128_d2 h_S_ b o).trans ?_
  have hf : (fun l => val_main_v83 (F := Ideal) tok K (ix3 b o l))
      = fun p => max (conv tok K b p o) (Ideal.ofBits .f32 0x00000000#32) := funext fun p => by
    rw [val_main_v83_apply, val_main_call0_v0_apply, val_main_call0_cst_apply, conv_stage tok K hr]
    rfl
  rw [hf]
  rfl

/-- THE REFERENCE'S RESULT. On tokens that are rows of the table, the reference program's result is the function of the
    specification: the pooled features through the affine layer. -/
theorem ref_eq (tok : IVec STok 32) (K : FVec Ideal STab .f32) (W : FVec Ideal SW .f32) (bias : FVec Ideal SB .f32)
    (hr : InRange tok) :
    Cert.ReferenceIdeal.Read.val_main_v89 (F := Ideal) tok K W bias = Cert.NgramConv.out tok K W bias := by
  funext i
  obtain ⟨b, j, rfl⟩ : ∃ b j, i = ix2 b j := ⟨i 0, i 1, eq_ix2 i⟩
  rw [val_main_v89_apply, val_main_v86_apply, val_main_v88_apply, val_main_v87_apply]
  show (∑ k : Fin 128, val_main_v84 (F := Ideal) tok K (lidx_main_v86 (ix2 b j) k)
        * val_main_v85 (F := Ideal) W (ridx_main_v86 (ix2 b j) k))
      + bias (idx_main_v87 (idx_main_v88 (ix2 b j)))
    = (∑ o : Fin 128, pooled tok K b o * W (ix2 j o)) + bias (ix1 j)
  refine congrArg₂ (fun x y : EReal => x + y) ?_ ?_
  · refine Finset.sum_congr rfl fun k _ => ?_
    have hl : lidx_main_v86 (ix2 b j) k = ix2 b k := funext fun a => match a with
      | ⟨0, _⟩ => rfl
      | ⟨1, _⟩ => rfl
    have hw : idx_main_v85 (ridx_main_v86 (ix2 b j) k) = ix2 j k := funext fun a => match a with
      | ⟨0, _⟩ => rfl
      | ⟨1, _⟩ => rfl
    rw [hl, pooled_stage tok K hr, val_main_v85_apply, hw]
  · exact congrArg bias (funext fun a => match a with
      | ⟨0, _⟩ => rfl)

end Cert.NgramConv.Ref

end
-- ==== Proof.Pieces.lean ====
/-
  What the kernel body leaves, case by case, as values of what it loads.

  At every grid point the body rewrites the whole accumulator: at a batch entry's first vocabulary tile with the tile's
  one-hot product added onto the zero block it has just stored, at every other tile added onto what the point before left.
  At a batch entry's last tile it then reads the accumulator back — tap w's 128 columns from row 0 on — and leaves in the
  output block the pooled, affinely mapped features computed from those five column blocks.
-/
import proofs.«414875_j5703716569443_3_alg».proof.Proof.Gen.KernelIdeal.Frame
import Idealize.ShloMosaic.Lib.Pipeline.Value
import Idealize.ShloMosaic.Lib.ValueIdx
import Idealize.ShloMosaic.Lib.Tactic

set_option maxRecDepth 16384

noncomputable section

open Idealize.ShloMosaic Idealize.ShloMosaic.TcCoe Idealize.SL.Sem Idealize.ShloMosaic.ValueIdx

namespace Cert.NgramConv.Kern

open Cert.KernelIdeal Cert.KernelIdeal.Gen

variable {F : FTy → Type} [FloatOps F]

theorem zeros2 : (![0, 0] : Fin 2 → Nat) = fun _ => 0 := funext fun a => by fin_cases a <;> rfl
theorem zeros3 : (![0, 0, 0] : Fin 3 → Nat) = fun _ => 0 := funext fun a => by fin_cases a <;> rfl

/-- The accumulator's columns 128 * w … 128 * w + 127, all rows (rows 0 … 2555 for tap 0), as the body loads them. -/
abbrev col0 (S : Vec F S2560x640 .f32) : Vec F S2556x128 .f32 :=
  View.ld S (Rect.unit (s := S2560x640) ![0, 0] S2556x128.size inb_S2560x640_S2556x128_0_0)
abbrev col1 (S : Vec F S2560x640 .f32) : Vec F S2560x128 .f32 :=
  View.ld S (Rect.unit (s := S2560x640) ![0, 128] S2560x128.size inb_S2560x640_S2560x128_0_128)
abbrev col2 (S : Vec F S2560x640 .f32) : Vec F S2560x128 .f32 :=
  View.ld S (Rect.unit (s := S2560x640) ![0, 256] S2560x128.size inb_S2560x640_S2560x128_0_256)
abbrev col3 (S : Vec F S2560x640 .f32) : Vec F S2560x128 .f32 :=
  View.ld S (Rect.unit (s := S2560x640) ![0, 384] S2560x128.size inb_S2560x640_S2560x128_0_384)
abbrev col4 (S : Vec F S2560x640 .f32) : Vec F S2560x128 .f32 :=
  View.ld S (Rect.unit (s := S2560x640) ![0, 512] S2560x128.size inb_S2560x640_S2560x128_0_512)

theorem col0_apply (S : Vec F S2560x640 .f32) (p : Fin 2556) (o : Fin 128) :
    col0 S (ix2 p o) = S (ix2 ⟨p.val, by have := p.isLt; omega⟩ ⟨o.val, by have := o.isLt; omega⟩) := by
  show S _ = S _
  congr 1
  funext a
  apply Fin.ext
  match a with
  | ⟨0, _⟩ => show 0 + 1 * p.val = p.val; omega
  | ⟨1, _⟩ => show 0 + 1 * o.val = o.val; omega

theorem col1_apply (S : Vec F S2560x640 .f32) (p : Fin 2560) (o : Fin 128) :
    col1 S (ix2 p o) = S (ix2 p ⟨128 + o.val, by have := o.isLt; omega⟩) := by
  show S _ = S _
  congr 1
  funext a
  apply Fin.ext
  match a with
  | ⟨0, _⟩ => show 0 + 1 * p.val = p.val; omega
  | ⟨1, _⟩ => show 128 + 1 * o.val = 128 + o.val; omega

theorem col2_apply (S : Vec F S2560x640 .f32) (p : Fin 2560) (o : Fin 128) :
    col2 S (ix2 p o) = S (ix2 p ⟨256 + o.val, by have := o.isLt; omega⟩) := by
  show S _ = S _
  congr 1
  funext a
  apply Fin.ext
  match a with
  | ⟨0, _⟩ => show 0 + 1 * p.val = p.val; omega
  | ⟨1, _⟩ => show 256 + 1 * o.val = 256 + o.val; omega

theorem col3_apply (S : Vec F S2560x640 .f32) (p : Fin 2560) (o : Fin 128) :
    col3 S (ix2 p o) = S (ix2 p ⟨384 + o.val, by have := o.isLt; omega⟩) := by
  show S _ = S _
  congr 1
  funext a
  apply Fin.ext
  match a with
  | ⟨0, _⟩ => show 0 + 1 * p.val = p.val; omega
  | ⟨1, _⟩ => show 384 + 1 * o.val = 384 + o.val; omega

theorem col4_apply (S : Vec F S2560x640 .f32) (p : Fin 2560) (o : Fin 128) :
    col4 S (ix2 p o) = S (ix2 p ⟨512 + o.val, by have := o.isLt; omega⟩) := by
  show S _ = S _
  congr 1
  funext a
  apply Fin.ext
  match a with
  | ⟨0, _⟩ => show 0 + 1 * p.val = p.val; omega
  | ⟨1, _⟩ => show 512 + 1 * o.val = 512 + o.val; omega

/-- A vocabulary tile that is neither the first nor the last: the accumulator the point before left, plus the tile's
    one-hot product. -/
theorem sout_B (c : Dev nD) (i : grid0.Coords) (arg2 : Memref sig .tc .vmem S1x2560x1 .i32) (harg2 : arg2.IsWhole) (arg3 : Memref sig .tc .vmem S2000x640 .bf16) (harg3 : arg3.IsWhole) (arg4 : Memref sig .tc .vmem S128x4 .bf16) (harg4 : arg4.IsWhole) (arg5 : Memref sig .tc .vmem S1x4 .f32) (harg5 : arg5.IsWhole) (arg6 : Memref sig .tc .vmem S1x1x4 .f32) (harg6 : arg6.IsWhole) (arg7 : Memref sig .tc .vmem S2560x640 .f32) (harg7 : arg7.IsWhole) (hc0 : ¬cond0_0 i) (hc1 : ¬cond0_1 i)
    (x0 : Vec F S1x2560x1 .i32) (x1 : Vec F S2000x640 .bf16) (x2 : Vec F S128x4 .bf16) (x3 : Vec F S1x4 .f32) (xs0 : Vec F S2560x640 .f32) :
    sout0_B_0 c i arg2 harg2 arg3 harg3 arg4 harg4 arg5 harg5 arg6 harg6 arg7 harg7 hc0 hc1 x0 x1 x2 x3 xs0 = k0_pay2 i x0 xs0 x1 := by
  unfold sout0_B_0
  rw [View.read_writes_eq_canon _ _ _ (scover0_B_0 c i arg2 harg2 arg3 harg3 arg4 harg4 arg5 harg5 arg6 harg6 arg7 harg7 hc0 hc1 x0 x1 x2 x3 xs0)]
  unfold kernelRun0_B
  dsimp only
  rw [View.canon_unit_zero zeros2]
  simp only [View.readAt_eq_ld, harg2.read_unread, harg7.read_unread, harg3.read_unread, View.ld_unit_zero (S := S1x2560x1) zeros3, View.ld_unit_zero (S := S2560x640) zeros2, View.ld_unit_zero (S := S2000x640) zeros2]

/-- A batch entry's first tile: the zero block is stored, read back, and the tile's one-hot product added onto it. -/
theorem sout_A (c : Dev nD) (i : grid0.Coords) (arg2 : Memref sig .tc .vmem S1x2560x1 .i32) (harg2 : arg2.IsWhole) (arg3 : Memref sig .tc .vmem S2000x640 .bf16) (harg3 : arg3.IsWhole) (arg4 : Memref sig .tc .vmem S128x4 .bf16) (harg4 : arg4.IsWhole) (arg5 : Memref sig .tc .vmem S1x4 .f32) (harg5 : arg5.IsWhole) (arg6 : Memref sig .tc .vmem S1x1x4 .f32) (harg6 : arg6.IsWhole) (arg7 : Memref sig .tc .vmem S2560x640 .f32) (harg7 : arg7.IsWhole) (hc0 : cond0_0 i) (hc1 : ¬cond0_1 i)
    (x0 : Vec F S1x2560x1 .i32) (x1 : Vec F S2000x640 .bf16) (x2 : Vec F S128x4 .bf16) (x3 : Vec F S1x4 .f32) :
    sout0_A_0 c i arg2 harg2 arg3 harg3 arg4 harg4 arg5 harg5 arg6 harg6 arg7 harg7 hc0 hc1 x0 x1 x2 x3 = k0_pay2 i x0 (k0_pay1 (F := F)) x1 := by
  unfold sout0_A_0
  rw [View.read_writes_eq_canon _ _ _ (scover0_A_0 c i arg2 harg2 arg3 harg3 arg4 harg4 arg5 harg5 arg6 harg6 arg7 harg7 hc0 hc1 x0 x1 x2 x3)]
  unfold kernelRun0_A
  dsimp only
  sl_unfold_words
  rw [View.canon_cons_unit_zero (S := S2560x640) zeros2, View.readCov_unit_zero (S := S2560x640) _ zeros2]
  simp only [View.readAt_eq_ld, harg2.read_unread, harg3.read_unread, View.ld_unit_zero (S := S1x2560x1) zeros3, View.ld_unit_zero (S := S2000x640) zeros2]

/-- A batch entry's last tile leaves the accumulator as every later tile does. -/
theorem sout_C (c : Dev nD) (i : grid0.Coords) (arg2 : Memref sig .tc .vmem S1x2560x1 .i32) (harg2 : arg2.IsWhole) (arg3 : Memref sig .tc .vmem S2000x640 .bf16) (harg3 : arg3.IsWhole) (arg4 : Memref sig .tc .vmem S128x4 .bf16) (harg4 : arg4.IsWhole) (arg5 : Memref sig .tc .vmem S1x4 .f32) (harg5 : arg5.IsWhole) (arg6 : Memref sig .tc .vmem S1x1x4 .f32) (harg6 : arg6.IsWhole) (arg7 : Memref sig .tc .vmem S2560x640 .f32) (harg7 : arg7.IsWhole) (hc0 : ¬cond0_0 i) (hc1 : cond0_1 i)
    (x0 : Vec F S1x2560x1 .i32) (x1 : Vec F S2000x640 .bf16) (x2 : Vec F S128x4 .bf16) (x3 : Vec F S1x4 .f32) (xs0 : Vec F S2560x640 .f32) :
    sout0_C_0 c i arg2 harg2 arg3 harg3 arg4 harg4 arg5 harg5 arg6 harg6 arg7 harg7 hc0 hc1 x0 x1 x2 x3 xs0 = k0_pay2 i x0 xs0 x1 := by
  unfold sout0_C_0
  rw [View.read_writes_eq_canon _ _ _ (scover0_C_0 c i arg2 harg2 arg3 harg3 arg4 harg4 arg5 harg5 arg6 harg6 arg7 harg7 hc0 hc1 x0 x1 x2 x3 xs0)]
  unfold kernelRun0_C
  dsimp only
  sl_unfold_words
  rw [View.canon_unit_zero zeros2]
  simp only [View.readAt_eq_ld, harg2.read_unread, harg7.read_unread, harg3.read_unread, View.ld_unit_zero (S := S1x2560x1) zeros3, View.ld_unit_zero (S := S2560x640) zeros2, View.ld_unit_zero (S := S2000x640) zeros2]

/-- … and its output block is the pooled, affinely mapped features of the five column blocks of that accumulator. -/
theorem out_C (c : Dev nD) (i : grid0.Coords) (arg2 : Memref sig .tc .vmem S1x2560x1 .i32) (harg2 : arg2.IsWhole) (arg3 : Memref sig .tc .vmem S2000x640 .bf16) (harg3 : arg3.IsWhole) (arg4 : Memref sig .tc .vmem S128x4 .bf16) (harg4 : arg4.IsWhole) (arg5 : Memref sig .tc .vmem S1x4 .f32) (harg5 : arg5.IsWhole) (arg6 : Memref sig .tc .vmem S1x1x4 .f32) (harg6 : arg6.IsWhole) (arg7 : Memref sig .tc .vmem S2560x640 .f32) (harg7 : arg7.IsWhole) (hc0 : ¬cond0_0 i) (hc1 : cond0_1 i)
    (x0 : Vec F S1x2560x1 .i32) (x1 : Vec F S2000x640 .bf16) (x2 : Vec F S128x4 .bf16) (x3 : Vec F S1x4 .f32) (xs0 : Vec F S2560x640 .f32) :
    out0_C_4 c i arg2 harg2 arg3 harg3 arg4 harg4 arg5 harg5 arg6 harg6 arg7 harg7 hc0 hc1 x0 x1 x2 x3 xs0
      = k0_pay3 (col0 (k0_pay2 i x0 xs0 x1)) (col1 (k0_pay2 i x0 xs0 x1)) (col2 (k0_pay2 i x0 xs0 x1)) (col3 (k0_pay2 i x0 xs0 x1))
          (col4 (k0_pay2 i x0 xs0 x1)) x2 x3 := by
  unfold out0_C_4
  rw [View.read_writes_eq_canon _ _ _ (cover0_C_4 c i arg2 harg2 arg3 harg3 arg4 harg4 arg5 harg5 arg6 harg6 arg7 harg7 hc0 hc1 x0 x1 x2 x3 xs0)]
  unfold kernelRun0_C
  dsimp only
  sl_unfold_words
  rw [View.canon_unit_zero zeros3]
  have hcov : ∀ (w : Vec F S2560x640 .f32) (y : S2560x640.Idx),
      ∃ p ∈ [(⟨Rect.unit ![0, 0] S2560x640.size inb_S2560x640_S2560x640_0_0, w⟩ : View.Piece (Elt F) S2560x640 .f32)], y ∈ p.1.set :=
    fun w y => ⟨_, List.mem_singleton_self _, View.mem_set_unit_zero zeros2 inb_S2560x640_S2560x640_0_0 y⟩
  simp only [View.readCov_eq_canon_ld _ _ _ (hcov _), View.canon_unit_zero (S := S2560x640) zeros2, View.readAt_eq_ld, harg2.read_unread, harg7.read_unread,
    harg3.read_unread, harg4.read_unread, harg5.read_unread, View.ld_unit_zero (S := S1x2560x1) zeros3,
    View.ld_unit_zero (S := S2560x640) zeros2, View.ld_unit_zero (S := S2000x640) zeros2, View.ld_unit_zero (S := S128x4) zeros2,
    View.ld_unit_zero (S := S1x4) zeros2]

end Cert.NgramConv.Kern

end
-- ==== Proof.Pay2.lean ====
/-
  The accumulation step of the kernel body read at an index.

  At grid point i the body compares each of the 2560 ids of the batch entry with the 2000 vocabulary rows
  (i 1)·2000 + k of the table tile, turns the comparison into the number 1 or 0, multiplies the resulting one-hot
  matrix [2560, 2000] by the tile [2000, 640] into a zero accumulator, and adds the product to the running
  accumulator. At (r, c) that is the accumulator's entry plus the sum over the tile's rows k of the one-hot entry
  times the tile's entry (k, c).
-/
import proofs.«414875_j5703716569443_3_alg».proof.Proof.Spec
import proofs.«414875_j5703716569443_3_alg».proof.Proof.Gen.KernelIdeal.Skeleton
import Idealize.ShloMosaic.PureOps.Ideal.Laws
import Idealize.ShloMosaic.Lib.ValueIdx
import Idealize.ShloMosaic.Lib.Pipeline.Value

noncomputable section

namespace Cert.NgramConv.Kern

open Idealize.ShloMosaic Idealize.ShloMosaic.ValueIdx Cert.KernelIdeal Cert.KernelIdeal.Gen

/-! ## The operand indices of the product [2560, 2000] · [2000, 640] -/

/-- The left operand's row is the result's row. -/
theorem lhs_onehot_0 (j : S2560x640.Idx) (q : dot_S2560x2000_S2000x640_S2560x640_1_0_0_1_n_n.contr.Idx) :
    (dot_S2560x2000_S2000x640_S2560x640_1_0_0_1_n_n.lhsIdx j q 0).val = (j 0).val := by
  unfold DotDims.lhsIdx
  rw [dif_neg (show ¬(0 : Fin S2560x2000.rank) ∈ dot_S2560x2000_S2000x640_S2560x640_1_0_0_1_n_n.lhsBatch by decide), dif_pos (show (0 : Fin S2560x2000.rank) ∈ dot_S2560x2000_S2000x640_S2560x640_1_0_0_1_n_n.lhsNonContracting by decide)]
  rfl

/-- The left operand's column is the contracted coordinate. -/
theorem lhs_onehot_1 (j : S2560x640.Idx) (q : dot_S2560x2000_S2000x640_S2560x640_1_0_0_1_n_n.contr.Idx) :
    (dot_S2560x2000_S2000x640_S2560x640_1_0_0_1_n_n.lhsIdx j q 1).val = (q ⟨0, by decide⟩).val :=
  dot_S2560x2000_S2000x640_S2560x640_1_0_0_1_n_n.lhsIdx_val_of_single rfl j q

/-- The right operand's row is the contracted coordinate. -/
theorem rhs_tile_0 (j : S2560x640.Idx) (q : dot_S2560x2000_S2000x640_S2560x640_1_0_0_1_n_n.contr.Idx) :
    (dot_S2560x2000_S2000x640_S2560x640_1_0_0_1_n_n.rhsIdx j q 0).val = (q ⟨0, by decide⟩).val :=
  dot_S2560x2000_S2000x640_S2560x640_1_0_0_1_n_n.rhsIdx_val_of_single rfl j q

/-- The right operand's column is the result's column. -/
theorem rhs_tile_1 (j : S2560x640.Idx) (q : dot_S2560x2000_S2000x640_S2560x640_1_0_0_1_n_n.contr.Idx) :
    (dot_S2560x2000_S2000x640_S2560x640_1_0_0_1_n_n.rhsIdx j q 1).val = (j 1).val := by
  unfold DotDims.rhsIdx
  rw [dif_neg (show ¬(1 : Fin S2000x640.rank) ∈ dot_S2560x2000_S2000x640_S2560x640_1_0_0_1_n_n.rhsBatch by decide), dif_pos (show (1 : Fin S2000x640.rank) ∈ dot_S2560x2000_S2000x640_S2560x640_1_0_0_1_n_n.rhsNonContracting by decide)]
  rfl

/-- The product into the zero accumulator at (r, c): the sum over the contracted coordinate k of the products of the
    entries (r, k) and (k, c). -/
theorem matmul_onehot_apply (A : FVec Ideal S2560x2000 .bf16) (B : FVec Ideal S2000x640 .bf16) (r : Fin 2560) (c : Fin 640) :
    FloatOps.matmul dot_S2560x2000_S2000x640_S2560x640_1_0_0_1_n_n none A B (constant (F := Ideal) S2560x640 .f32 0x00000000#32) (ix2 r c)
      = ∑ k : Fin 2000, A (ix2 r k) * B (ix2 k c) := by
  rw [Ideal.matmul_constant_zero_apply, ← Equiv.sum_comp (ValueIdx.contrEquiv1 dot_S2560x2000_S2000x640_S2560x640_1_0_0_1_n_n 2000 rfl rfl).symm]
  refine Finset.sum_congr rfl fun k _ => ?_
  have hk := ValueIdx.contrEquiv1_symm_val dot_S2560x2000_S2000x640_S2560x640_1_0_0_1_n_n 2000 rfl rfl k
  have el : dot_S2560x2000_S2000x640_S2560x640_1_0_0_1_n_n.lhsIdx (ix2 r c) ((ValueIdx.contrEquiv1 dot_S2560x2000_S2000x640_S2560x640_1_0_0_1_n_n 2000 rfl rfl).symm k) = ix2 r k := funext fun a => Fin.ext (by
    match a with
    | ⟨0, _⟩ => exact lhs_onehot_0 _ _
    | ⟨1, _⟩ => exact (lhs_onehot_1 _ _).trans hk)
  have er : dot_S2560x2000_S2000x640_S2560x640_1_0_0_1_n_n.rhsIdx (ix2 r c) ((ValueIdx.contrEquiv1 dot_S2560x2000_S2000x640_S2560x640_1_0_0_1_n_n 2000 rfl rfl).symm k) = ix2 k c := funext fun a => Fin.ext (by
    match a with
    | ⟨0, _⟩ => exact (rhs_tile_0 _ _).trans hk
    | ⟨1, _⟩ => exact rhs_tile_1 _ _)
  rw [el, er]

/-! ## The one-hot entry -/

/-- The vocabulary row the tile's row k stands for at grid point i, as a word: the product and the sum of words are the
    word of the product and the sum. -/
theorem vocab_word (n k : ℕ) : IntOp.addi (Scalar.muli (BitVec.ofNat 32 n) 2000#32) (BitVec.ofNat 32 k) = BitVec.ofNat 32 (n * 2000 + k) := by
  show BitVec.ofNat 32 n * 2000#32 + BitVec.ofNat 32 k = _
  rw [BitVec.ofNat_add, BitVec.ofNat_mul]

/-- A comparison bit widened to a word and read as a signed number is 1 where the words are equal and 0 elsewhere. -/
theorem eq_bit_value (x y : BitVec 32) :
    FloatOps.sitofp (F := Ideal) .f32 ((IntOp.cmpi .eq x y).setWidth 32) = if x = y then (1 : EReal) else 0 := by
  show (((((BitVec.ofBool (x == y)).setWidth 32).toInt : ℤ) : ℝ) : EReal) = _
  by_cases h : x = y
  · rw [if_pos h, beq_iff_eq.mpr h]
    show ((((1#32 : BitVec 32).toInt : ℤ) : ℝ) : EReal) = 1
    norm_num
  · rw [if_neg h, beq_eq_false_iff_ne.mpr h]
    show ((((0#32 : BitVec 32).toInt : ℤ) : ℝ) : EReal) = 0
    norm_num

/-! ## The payload -/

/-- The accumulation step at (r, c): the accumulator's entry plus the one-hot row of id r against the tile's vocabulary
    rows (i 1)·2000 + k, times the tile's column c. -/
theorem pay2_apply (i : grid0.Coords) (ids : Vec Ideal S1x2560x1 .i32) (acc : Vec Ideal S2560x640 .f32) (tile : Vec Ideal S2000x640 .bf16) (r : Fin 2560) (c : Fin 640) :
    k0_pay2 (F := Ideal) i ids acc tile (ix2 r c)
      = acc (ix2 r c) + ∑ k : Fin 2000, (if ids (ix3 0 r 0) = BitVec.ofNat 32 ((i 1).val * 2000 + k.val) then (1 : EReal) else 0) * tile (ix2 k c) := by
  unfold k0_pay2
  rw [shapeCast_self, addf_apply, shapeCast_self]
  refine congrArg (acc (ix2 r c) + ·) ?_
  refine (matmul_onehot_apply _ _ r c).trans ?_
  refine Finset.sum_congr rfl fun k _ => ?_
  refine congrArg (· * tile (ix2 k c)) ?_
  rw [truncf_apply, sitofp_apply, extui_apply]
  refine (eq_bit_value _ _).trans ?_
  have e9 := broadcastTo_apply (shapeCast S2560x1 ids shapeCasts_S1x2560x1_S2560x1) broadcasts_S2560x1_S2560x2000 (ix2 r k) (ix2 r (0 : Fin 1)) (fun a => by
    match a with
    | ⟨0, _⟩ => rfl
    | ⟨1, _⟩ => rfl)
  have e8 := shapeCast_apply ids shapeCasts_S1x2560x1_S2560x1 (ix2 r (0 : Fin 1)) (ix3 (0 : Fin 1) r (0 : Fin 1)) (by
    rw [Shape.rowMajor_val_three, Shape.rowMajor_val_two]
    show (0 * 2560 + r.val) * 1 + 0 = r.val * 1 + 0
    omega)
  have e10 : broadcastTo S2560x2000 (addi (broadcast S1x2000 (Scalar.muli (BitVec.ofNat 32 (i 1).val) 2000#32)) (iota .tc S1x2000 32 [1] iota_S1x2000_d1_w32)) broadcasts_S1x2000_S2560x2000 (ix2 r k) = BitVec.ofNat 32 ((i 1).val * 2000 + k.val) := by
    refine (broadcastTo_apply _ broadcasts_S1x2000_S2560x2000 (ix2 r k) (ix2 (0 : Fin 1) k) (fun a => by
      match a with
      | ⟨0, _⟩ => rfl
      | ⟨1, _⟩ => rfl)).trans ?_
    show IntOp.addi _ (iota .tc S1x2000 32 [1] iota_S1x2000_d1_w32 (ix2 (0 : Fin 1) k)) = _
    rw [iota_single_apply]
    exact vocab_word _ _
  rw [e9.trans e8, e10]

end Cert.NgramConv.Kern

end
-- ==== Proof.Pay3.lean ====
/-
  The finishing step of the kernel body read at an index.

  The accumulator [2560, 640] holds, in column block w (128 columns), the table rows of tap w selected by the 2560 ids.
  Block w is rolled up by w rows, so that row p of the rolled block is row p + w of the block; the first 2556 rows of
  the five blocks are added in tap order, clipped below at zero, and maximised over the rows, column by column; the
  128 maxima, as a row, are multiplied by the [128, 4] weights into a zero accumulator, and the bias row is added.
-/
import proofs.«414875_j5703716569443_3_alg».proof.Proof.Spec
import proofs.«414875_j5703716569443_3_alg».proof.Proof.Gen.KernelIdeal.Skeleton
import Idealize.ShloMosaic.PureOps.Ideal.Laws
import Idealize.ShloMosaic.Lib.ValueIdx
import Idealize.ShloMosaic.Lib.Pipeline.Value

noncomputable section

namespace Cert.NgramConv.Kern

open Idealize.ShloMosaic Idealize.ShloMosaic.ValueIdx Cert.KernelIdeal Cert.KernelIdeal.Gen

/-! ## The operand indices of the product [1, 128] · [128, 4] -/

/-- The left operand's row is the result's row. -/
theorem lhs_pooled_0 (j : S1x4.Idx) (q : dot_S1x128_S128x4_S1x4_1_0_0_1_n_n.contr.Idx) :
    (dot_S1x128_S128x4_S1x4_1_0_0_1_n_n.lhsIdx j q 0).val = (j 0).val := by
  unfold DotDims.lhsIdx
  rw [dif_neg (show ¬(0 : Fin S1x128.rank) ∈ dot_S1x128_S128x4_S1x4_1_0_0_1_n_n.lhsBatch by decide), dif_pos (show (0 : Fin S1x128.rank) ∈ dot_S1x128_S128x4_S1x4_1_0_0_1_n_n.lhsNonContracting by decide)]
  rfl

/-- The left operand's column is the contracted coordinate. -/
theorem lhs_pooled_1 (j : S1x4.Idx) (q : dot_S1x128_S128x4_S1x4_1_0_0_1_n_n.contr.Idx) :
    (dot_S1x128_S128x4_S1x4_1_0_0_1_n_n.lhsIdx j q 1).val = (q ⟨0, by decide⟩).val :=
  dot_S1x128_S128x4_S1x4_1_0_0_1_n_n.lhsIdx_val_of_single rfl j q

/-- The right operand's row is the contracted coordinate. -/
theorem rhs_weights_0 (j : S1x4.Idx) (q : dot_S1x128_S128x4_S1x4_1_0_0_1_n_n.contr.Idx) :
    (dot_S1x128_S128x4_S1x4_1_0_0_1_n_n.rhsIdx j q 0).val = (q ⟨0, by decide⟩).val :=
  dot_S1x128_S128x4_S1x4_1_0_0_1_n_n.rhsIdx_val_of_single rfl j q

/-- The right operand's column is the result's column. -/
theorem rhs_weights_1 (j : S1x4.Idx) (q : dot_S1x128_S128x4_S1x4_1_0_0_1_n_n.contr.Idx) :
    (dot_S1x128_S128x4_S1x4_1_0_0_1_n_n.rhsIdx j q 1).val = (j 1).val := by
  unfold DotDims.rhsIdx
  rw [dif_neg (show ¬(1 : Fin S128x4.rank) ∈ dot_S1x128_S128x4_S1x4_1_0_0_1_n_n.rhsBatch by decide), dif_pos (show (1 : Fin S128x4.rank) ∈ dot_S1x128_S128x4_S1x4_1_0_0_1_n_n.rhsNonContracting by decide)]
  rfl

/-- The product into the zero accumulator at (0, j): the sum over the contracted coordinate o of the products of the
    entries (0, o) and (o, j). -/
theorem matmul_pooled_apply (A : FVec Ideal S1x128 .bf16) (B : FVec Ideal S128x4 .bf16) (j : Fin 4) :
    FloatOps.matmul dot_S1x128_S128x4_S1x4_1_0_0_1_n_n none A B (constant (F := Ideal) S1x4 .f32 0x00000000#32) (ix2 (0 : Fin 1) j)
      = ∑ o : Fin 128, A (ix2 (0 : Fin 1) o) * B (ix2 o j) := by
  rw [Ideal.matmul_constant_zero_apply, ← Equiv.sum_comp (ValueIdx.contrEquiv1 dot_S1x128_S128x4_S1x4_1_0_0_1_n_n 128 rfl rfl).symm]
  refine Finset.sum_congr rfl fun o _ => ?_
  have ho := ValueIdx.contrEquiv1_symm_val dot_S1x128_S128x4_S1x4_1_0_0_1_n_n 128 rfl rfl o
  have el : dot_S1x128_S128x4_S1x4_1_0_0_1_n_n.lhsIdx (ix2 (0 : Fin 1) j) ((ValueIdx.contrEquiv1 dot_S1x128_S128x4_S1x4_1_0_0_1_n_n 128 rfl rfl).symm o) = ix2 (0 : Fin 1) o := funext fun a => Fin.ext (by
    match a with
    | ⟨0, _⟩ => exact lhs_pooled_0 _ _
    | ⟨1, _⟩ => exact (lhs_pooled_1 _ _).trans ho)
  have er : dot_S1x128_S128x4_S1x4_1_0_0_1_n_n.rhsIdx (ix2 (0 : Fin 1) j) ((ValueIdx.contrEquiv1 dot_S1x128_S128x4_S1x4_1_0_0_1_n_n 128 rfl rfl).symm o) = ix2 o j := funext fun a => Fin.ext (by
    match a with
    | ⟨0, _⟩ => exact (rhs_weights_0 _ _).trans ho
    | ⟨1, _⟩ => exact rhs_weights_1 _ _)
  rw [el, er]

/-! ## A column block rolled up -/

/-- A column block rotated along its rows by the word n, where n + w is the number of rows and w ≤ 4, then cut to its
    first 2556 rows: row p reads row p + w of the block (a rotation by n moves row q to row q + n around the end, so
    row p holds row p − n, which around the end is row p + w). -/
theorem rolled_apply (a : Vec Ideal S2560x128 .f32) (n : BitVec 32) (w : ℕ) (hn : n.toNat + w = 2560) (hw : w ≤ 4)
    (p : Fin 2556) (o : Fin 128) :
    extractStridedSlice S2556x128 ![0, 0] (dynamicRotate (0 : Fin S2560x128.rank) n none a rotates_S2560x128_d0) slices_S2560x128_o0_0_S2556x128 (ix2 p o)
      = a (ix2 ⟨p.val + w, by have := p.isLt; omega⟩ o) := by
  refine (extractStridedSlice_apply ![0, 0] _ slices_S2560x128_o0_0_S2556x128 (ix2 p o) (ix2 (⟨p.val, by have := p.isLt; omega⟩ : Fin 2560) o) (fun b => by
    match b with
    | ⟨0, _⟩ => exact (Nat.zero_add _).symm
    | ⟨1, _⟩ => exact (Nat.zero_add _).symm)).trans ?_
  unfold dynamicRotate
  refine congrArg a (funext fun b => Fin.ext ?_)
  match b with
  | ⟨0, _⟩ =>
    show (p.val + 2560 - (n.toNat + 0) % 2560) % 2560 = p.val + w
    have := p.isLt
    omega
  | ⟨1, _⟩ => rfl

/-! ## The column maximum -/

/-- The maximum over the 2556 rows of a [2556, 128] array, read at column o: the fold of max from the accumulator word's
    value over the entries (p, o). -/
theorem colmax_apply (x : FVec Ideal S2556x128 .f32) (o : Fin 128) :
    multiReduction (F := Ideal) .maximumf [0] S128 x 0xFF800000#32 reduces_S2556x128_S128 (.inl rfl) rfl (ix1 o)
      = (Finset.univ : Finset (Fin 2556)).fold max (Ideal.ofBits .f32 0xFF800000#32) (fun p => x (ix2 p o)) := by
  refine (Ideal.multiReduction_maximumf_single x 0xFF800000#32 reduces_S2556x128_S128 (.inl rfl) rfl (ix1 o)).trans ?_
  show (Finset.univ : Finset (Fin 2556)).fold max (Ideal.ofBits .f32 0xFF800000#32) (fun p => x (reduces_S2556x128_S128.lift (ix1 o) p)) = _
  refine congrArg (fun f : Fin 2556 → EReal => (Finset.univ : Finset (Fin 2556)).fold max (Ideal.ofBits .f32 0xFF800000#32) f) (funext fun p => congrArg x (funext fun b => Fin.ext ?_))
  match b with
  | ⟨0, _⟩ => rfl
  | ⟨1, _⟩ => rfl

/-! ## The payload -/

/-- The finishing step at (0, 0, j): the column maxima of the clipped sum of the five blocks, block w read w rows
    further on, through the affine layer. -/
theorem pay3_apply (a0 : Vec Ideal S2556x128 .f32) (a1 a2 a3 a4 : Vec Ideal S2560x128 .f32) (w : Vec Ideal S128x4 .bf16) (b : Vec Ideal S1x4 .f32) (j : Fin 4) :
    k0_pay3 (F := Ideal) a0 a1 a2 a3 a4 w b (ix3 0 0 j)
      = (∑ o : Fin 128, ((Finset.univ : Finset (Fin 2556)).fold max (Ideal.ofBits .f32 0xFF800000#32)
            (fun p => max (a0 (ix2 p o) + a1 (ix2 ⟨p.val + 1, by have := p.isLt; omega⟩ o) + a2 (ix2 ⟨p.val + 2, by have := p.isLt; omega⟩ o)
                          + a3 (ix2 ⟨p.val + 3, by have := p.isLt; omega⟩ o) + a4 (ix2 ⟨p.val + 4, by have := p.isLt; omega⟩ o))
                        (Ideal.ofBits .f32 0x00000000#32))) * w (ix2 o j))
        + b (ix2 0 j) := by
  unfold k0_pay3
  refine (shapeCast_apply _ shapeCasts_S1x4_S1x1x4 (ix3 (0 : Fin 1) (0 : Fin 1) j) (ix2 (0 : Fin 1) j) (by
    rw [Shape.rowMajor_val_three, Shape.rowMajor_val_two]
    show 0 * 4 + j.val = (0 * 1 + 0) * 4 + j.val
    omega)).trans ?_
  rw [addf_apply, shapeCast_self, shapeCast_self]
  refine congrArg (· + b (ix2 (0 : Fin 1) j)) ?_
  refine (matmul_pooled_apply _ _ j).trans ?_
  refine Finset.sum_congr rfl fun o _ => ?_
  refine congrArg (· * w (ix2 o j)) ?_
  rw [truncf_apply]
  refine (shapeCast_apply _ shapeCasts_S128_S1x128 (ix2 (0 : Fin 1) o) (ix1 o) (by
    rw [Shape.rowMajor_val_two, Shape.rowMajor_val_one]
    show o.val = 0 * 128 + o.val
    omega)).trans ?_
  refine (colmax_apply _ o).trans ?_
  refine congrArg (fun f : Fin 2556 → EReal => (Finset.univ : Finset (Fin 2556)).fold max (Ideal.ofBits .f32 0xFF800000#32) f) (funext fun p => ?_)
  rw [maximumf_apply, broadcast_apply, addf_apply, addf_apply, addf_apply, addf_apply,
    rolled_apply a1 2559#32 1 rfl (by decide) p o, rolled_apply a2 2558#32 2 rfl (by decide) p o,
    rolled_apply a3 2557#32 3 rfl (by decide) p o, rolled_apply a4 2556#32 4 rfl (by decide) p o]
  rfl

end Cert.NgramConv.Kern

end
-- ==== Proof.OneHot.lean ====
/-
  A one-hot row against a block of table rows, and the running sum over the blocks.

  A row that is one at the column whose number equals an id and zero elsewhere, multiplied into a block of 2000 consecutive
  table rows, picks the id's row when the id lies in the block and gives zero when it does not: in the extended reals
  1 * x = x and 0 * x = 0 for every x, so the sum has at most one term that is not zero. Adding these over the blocks
  0, 1, …, in order, the running sum after block vt is the id's row if the id lies below 2000 * (vt + 1) and zero otherwise.
-/
import Idealize.ShloMosaic.PureOps.Ideal

noncomputable section

namespace Cert.NgramConv

/-- A 32-bit word equals the word of a small number exactly when its value is that number. -/
theorem eq_ofNat_iff (id : BitVec 32) (n : Nat) (hn : n < 4294967296) : id = BitVec.ofNat 32 n ↔ id.toNat = n := by
  constructor
  · rintro rfl
    rw [BitVec.toNat_ofNat]
    exact Nat.mod_eq_of_lt hn
  · intro h
    apply BitVec.eq_of_toNat_eq
    rw [BitVec.toNat_ofNat, Nat.mod_eq_of_lt hn]
    exact h

/-- The one-hot row of an id against the rows base, …, base + 1999: the id's entry of the block, or zero. -/
theorem onehot_sum (id : BitVec 32) (base : Nat) (hb : base + 2000 ≤ 4294967296) (f : Fin 2000 → EReal) :
    ∑ k : Fin 2000, (if id = BitVec.ofNat 32 (base + k.val) then (1 : EReal) else 0) * f k
      = if h : base ≤ id.toNat ∧ id.toNat < base + 2000 then f ⟨id.toNat - base, by omega⟩ else 0 := by
  have key : ∀ k : Fin 2000, (id = BitVec.ofNat 32 (base + k.val)) ↔ id.toNat = base + k.val :=
    fun k => eq_ofNat_iff id _ (by have := k.isLt; omega)
  simp only [key]
  by_cases h : base ≤ id.toNat ∧ id.toNat < base + 2000
  · rw [dif_pos h, Finset.sum_eq_single (⟨id.toNat - base, by omega⟩ : Fin 2000)]
    · rw [if_pos (by show id.toNat = base + (id.toNat - base); omega), one_mul]
    · intro k _ hk
      rw [if_neg, zero_mul]
      intro he
      apply hk
      apply Fin.ext
      show k.val = id.toNat - base
      omega
    · intro hn
      exact absurd (Finset.mem_univ _) hn
  · rw [dif_neg h]
    apply Finset.sum_eq_zero
    intro k _
    rw [if_neg, zero_mul]
    intro he
    apply h
    have := k.isLt
    omega

/-- One step of the running sum: what the blocks below vt gave, plus block vt's one-hot product, is what the blocks
    up to vt give. The block's rows are the table's rows 2000 * vt + k. -/
theorem tile_step (id : BitVec 32) (vt : Nat) (hvt : vt < 15) (hid : id.toNat < 30000) (kc : Fin 30000 → EReal)
    (f : Fin 2000 → EReal) (hf : ∀ k : Fin 2000, f k = kc ⟨2000 * vt + k.val, by have := k.isLt; omega⟩) (prev : EReal)
    (hprev : prev = if id.toNat < 2000 * vt then kc ⟨id.toNat, hid⟩ else 0) :
    prev + ∑ k : Fin 2000, (if id = BitVec.ofNat 32 (vt * 2000 + k.val) then (1 : EReal) else 0) * f k
      = if id.toNat < 2000 * (vt + 1) then kc ⟨id.toNat, hid⟩ else 0 := by
  rw [onehot_sum id (vt * 2000) (by omega) f, hprev]
  by_cases h1 : id.toNat < 2000 * vt
  · rw [if_pos h1, dif_neg (by omega), if_pos (by omega), add_zero]
  · rw [if_neg h1, zero_add]
    by_cases h2 : id.toNat < 2000 * (vt + 1)
    · rw [dif_pos (by omega), if_pos h2, hf]
      congr 1
      apply Fin.ext
      show 2000 * vt + (id.toNat - vt * 2000) = id.toNat
      omega
    · rw [dif_neg (by omega), if_neg h2]

end Cert.NgramConv

end
-- ==== Proof.HostPrefix.lean ====
/-
  What the host operations before the region leave in the four arrays the region's windows stage, read at an index,
  at the extended-real values.

  The ids: the token array [32, 40, 64] flattened to [32, 2560] (entry (b, q) is token (b, q / 64, q % 64)), each id
  clipped to [0, 29999] (a signed maximum with 0, then a signed minimum with 29999: the identity on an id that is a row
  of the table), then given a trailing unit axis.
  The table: [128, 30000, 1, 5] with its unit axis dropped, permuted to [30000, 5, 128], flattened to [30000, 640]
  (column w * 128 + o is tap w of channel o), multiplied by one, narrowed (the identity on extended reals).
  The affine layer's matrix transposed and narrowed, and its bias with a leading unit axis.
-/
import proofs.«414875_j5703716569443_3_alg».proof.Proof.Spec
import proofs.«414875_j5703716569443_3_alg».proof.Proof.Gen.KernelIdeal.Frame.Runs
import Idealize.ShloMosaic.Lib.ValueIdx
import Idealize.ShloMosaic.Lib.Pipeline.Value
import Idealize.ShloMosaic.Lib.ValueLayout
import Idealize.ShloMosaic.Lib.IdealHost
import Idealize.ShloMosaic.Lib.StableHlo.Run

set_option maxRecDepth 16384

noncomputable section

namespace Cert.NgramConv.Kern

open Idealize.ShloMosaic Idealize.ShloMosaic.TcCoe Idealize.ShloMosaic.ValueIdx Idealize.SL.Sem Cert.KernelIdeal Cert.KernelIdeal.Gen Cert.NgramConv

variable (m : (ℓ : Loc nD τ sig) → Buf (Elt Ideal) ℓ)

/-! ## The arrays as terms over the launch contents -/

/-- The bias array with a leading unit axis. -/
theorem v10_eq (c : Dev nD) :
    (V m c main_v10 : S1x4.Idx → EReal)
      = shapeCast S1x4 (m ((c : Thread nD τ).loc main_arg3) : S4.Idx → EReal) shapeCasts_S4_S1x4 := by
  dsimp only [Gen.V, Gen.V0]
  simp only [Gen.hostOps0, Gen.hostOps0_1, Gen.hostOps0_2, List.flatten_cons, List.flatten_nil, List.append_nil,
    List.cons_append, List.nil_append]
  after_results
  rfl

/-- The affine layer's matrix transposed, narrowed. -/
theorem v9_eq (c : Dev nD) :
    (V m c main_v9 : S128x4.Idx → EReal)
      = truncf (F := Ideal) .bf16 (transpose S128x4 [1, 0] (m ((c : Thread nD τ).loc main_arg2) : S4x128.Idx → EReal)
          transposes_S4x128_S128x4_1_0) bitsLt_bf16_f32 := by
  dsimp only [Gen.V, Gen.V0]
  simp only [Gen.hostOps0, Gen.hostOps0_1, Gen.hostOps0_2, List.flatten_cons, List.flatten_nil, List.append_nil,
    List.cons_append, List.nil_append]
  after_results

/-- The table with its unit axis dropped, permuted, flattened, multiplied by the constant, narrowed. -/
theorem v7_eq (c : Dev nD) :
    (V m c main_v7 : S30000x640.Idx → EReal)
      = truncf (F := Ideal) .bf16
          (mulf (F := Ideal)
            (shapeCast S30000x640
              (transpose S30000x5x128 [1, 2, 0]
                (shapeCast S128x30000x5 (m ((c : Thread nD τ).loc main_arg1) : S128x30000x1x5.Idx → EReal)
                  shapeCasts_S128x30000x1x5_S128x30000x5)
                transposes_S128x30000x5_S30000x5x128_1_2_0)
              shapeCasts_S30000x5x128_S30000x640)
            (broadcastInDim S30000x640 ![] bcast_S_S30000x640 (constant (F := Ideal) S_ .f32 0x3F800000#32)))
          bitsLt_bf16_f32 := by
  dsimp only [Gen.V, Gen.V0]
  simp only [Gen.hostOps0, Gen.hostOps0_1, Gen.hostOps0_2, List.flatten_cons, List.flatten_nil, List.append_nil,
    List.cons_append, List.nil_append]
  after_results
  rfl

/-- The ids flattened, clipped between the two broadcast constants, given a trailing unit axis. -/
theorem v11_eq (c : Dev nD) :
    (V m c main_v11 : S32x2560x1.Idx → BitVec 32)
      = broadcastInDim S32x2560x1 ![0, 1] bcast_S32x2560_S32x2560x1_0_1
          (minsi (broadcastInDim S32x2560 ![] bcast_S_S32x2560 (constantI S_ 32 29999#32))
            (maxsi (broadcastInDim S32x2560 ![] bcast_S_S32x2560 (constantI S_ 32 0#32))
              (shapeCast S32x2560 (m ((c : Thread nD τ).loc main_arg0) : S32x40x64.Idx → BitVec 32)
                shapeCasts_S32x40x64_S32x2560))) := by
  dsimp only [Gen.V, Gen.V0]
  simp only [Gen.hostOps0, Gen.hostOps0_1, Gen.hostOps0_2, List.flatten_cons, List.flatten_nil, List.append_nil,
    List.cons_append, List.nil_append]
  after_results
  rfl

/-! ## The layout operations read at an index, over any array of the shape -/

/-- The token array flattened reads, at (b, q), the token at (b, q / 64, q % 64): both sit at row-major position
    b * 2560 + q. -/
theorem flat_apply (tok : S32x40x64.Idx → BitVec 32) (h : S32x40x64.ShapeCasts S32x2560) (b : Fin 32) (q : Fin 2560) :
    shapeCast S32x2560 tok h (ix2 b q) = idAt tok b q := by
  unfold idAt
  refine shapeCast_apply tok h (ix2 b q) _ ?_
  rw [Shape.rowMajor_val_three, Shape.rowMajor_val_two]
  show (b.val * 40 + q.val / 64) * 64 + q.val % 64 = b.val * 2560 + q.val
  omega

/-- The table with its unit axis dropped, permuted by [1, 2, 0] and flattened reads, at row v and column w * 128 + o,
    the table at (o, v, 0, w). -/
theorem table_apply (K : S128x30000x1x5.Idx → EReal) (h1 : S128x30000x1x5.ShapeCasts S128x30000x5)
    (h2 : S128x30000x5.Transposes [1, 2, 0] S30000x5x128) (h3 : S30000x5x128.ShapeCasts S30000x640)
    (v : Fin 30000) (w : Fin 5) (o : Fin 128) :
    shapeCast S30000x640 (transpose S30000x5x128 [1, 2, 0] (shapeCast S128x30000x5 K h1) h2) h3
        (ix2 v ⟨w.val * 128 + o.val, by have := w.isLt; have := o.isLt; omega⟩)
      = K (ix4 o v 0 w) := by
  -- column w * 128 + o of row v is entry (v, w, o): both at row-major position v * 640 + w * 128 + o
  refine (shapeCast_apply _ h3 _ (ix3 v w o) ?_).trans ?_
  · rw [Shape.rowMajor_val_three, Shape.rowMajor_val_two]
    show (v.val * 5 + w.val) * 128 + o.val = v.val * 640 + (w.val * 128 + o.val)
    omega
  -- the permutation [1, 2, 0] reads (v, w, o) at (o, v, w)
  refine (transpose_apply [1, 2, 0] _ h2 (ix3 v w o) (ix3 o v w)
    (fun a => match a with | ⟨0, _⟩ => rfl | ⟨1, _⟩ => rfl | ⟨2, _⟩ => rfl)).trans ?_
  -- the unit axis put back
  refine shapeCast_apply K h1 (ix3 o v w) (ix4 o v 0 w) ?_
  rw [Shape.rowMajor_val_four, Shape.rowMajor_val_three]
  show ((o.val * 30000 + v.val) * 1 + 0) * 5 + w.val = (o.val * 30000 + v.val) * 5 + w.val
  omega

/-- A matrix given a trailing unit axis reads, at (b, q, 0), the matrix at (b, q). -/
theorem unit_axis_apply (x : S32x2560.Idx → BitVec 32) (h : S32x2560.BroadcastsInDim S32x2560x1 ![0, 1])
    (b : Fin 32) (q : Fin 2560) :
    broadcastInDim S32x2560x1 ![0, 1] h x (ix3 b q 0) = x (ix2 b q) :=
  broadcastInDim_apply ![0, 1] h x (ix3 b q 0) (ix2 b q) (fun a => match a with | ⟨0, _⟩ => rfl | ⟨1, _⟩ => rfl)

/-! ## The clip on a row of the table -/

/-- A signed word in [0, 30000) is unchanged by the signed maximum with 0 followed by the signed minimum with 29999:
    it is not below 0, and 29999 is not below it. -/
theorem clip_id (x : BitVec 32) (h0 : 0 ≤ x.toInt) (h1 : x.toInt < 30000) :
    IntOp.minsi 29999#32 (IntOp.maxsi 0#32 x) = x := by
  have z : (0#32 : BitVec 32).toInt = 0 := by decide
  have t : (29999#32 : BitVec 32).toInt = 29999 := by decide
  have e0 : IntOp.maxsi 0#32 x = x := by
    unfold IntOp.maxsi BitVec.slt
    rw [z, if_neg]
    intro h
    have := of_decide_eq_true h
    omega
  rw [e0]
  unfold IntOp.minsi BitVec.slt
  rw [t, if_neg]
  intro h
  have := of_decide_eq_true h
  omega

/-! ## The four arrays read at an index -/

theorem ids_eq (c : Dev nD) (hr : InRange (m ((c : Thread nD τ).loc main_arg0))) (b : Fin 32) (q : Fin 2560) :
    (V m c main_v11 : S32x2560x1.Idx → BitVec 32) (ix3 b q 0) = idAt (m ((c : Thread nD τ).loc main_arg0)) b q := by
  refine (congrFun (v11_eq m c) _).trans ?_
  refine (unit_axis_apply _ _ b q).trans ?_
  -- the clip at one entry, the two constants read
  refine Eq.trans (b := IntOp.minsi 29999#32 (IntOp.maxsi 0#32
    (shapeCast S32x2560 (m ((c : Thread nD τ).loc main_arg0) : S32x40x64.Idx → BitVec 32)
      shapeCasts_S32x40x64_S32x2560 (ix2 b q)))) rfl ?_
  rw [flat_apply]
  exact clip_id _ (hr _).1 (hr _).2

theorem kcat_eq (c : Dev nD) (v : Fin 30000) (w : Fin 5) (o : Fin 128) :
    (V m c main_v7 : S30000x640.Idx → EReal) (ix2 v ⟨w.val * 128 + o.val, by have := w.isLt; have := o.isLt; omega⟩) = (m ((c : Thread nD τ).loc main_arg1) : S128x30000x1x5.Idx → EReal) (ix4 o v 0 w) := by
  refine (congrFun (v7_eq m c) _).trans ?_
  -- narrowing is the identity; the product is with the broadcast constant, which is one
  refine (truncf_apply (φ := .f32) (ψ := .bf16) _ bitsLt_bf16_f32 _).trans ?_
  refine (mulf_apply _ _ _).trans ?_
  rw [broadcastInDim_scalar_apply, constant_apply, Ideal.ofBits_one_f32, mul_one]
  exact table_apply _ _ _ _ v w o

theorem fcw_eq (c : Dev nD) (o : Fin 128) (j : Fin 4) :
    (V m c main_v9 : S128x4.Idx → EReal) (ix2 o j) = (m ((c : Thread nD τ).loc main_arg2) : S4x128.Idx → EReal) (ix2 j o) := by
  refine (congrFun (v9_eq m c) _).trans ?_
  refine (truncf_apply (φ := .f32) (ψ := .bf16) _ bitsLt_bf16_f32 _).trans ?_
  exact transpose_ix2_apply _ _ o j

theorem fcb_eq (c : Dev nD) (j : Fin 4) :
    (V m c main_v10 : S1x4.Idx → EReal) (ix2 0 j) = (m ((c : Thread nD τ).loc main_arg3) : S4.Idx → EReal) (ix1 j) := by
  refine (congrFun (v10_eq m c) _).trans ?_
  exact shapeCast_a_1a_apply _ _ 0 j

end Cert.NgramConv.Kern

end
-- ==== Proof.BlockReads.lean ====
/-
  Each input window's block, read at a point of the grid. The grid is [32, 15]: point t has batch entry t / 15 and
  vocabulary tile t % 15. A block read at a coordinate is the array read at (block index × block size + the coordinate
  inside the block) on every axis. The token window's block index is (t / 15, 0, 0) with block [1, 2560, 1]; the table
  window's is (t % 15, 0) with block [2000, 640]; the two affine windows' blocks are their whole arrays.
-/
import proofs.«414875_j5703716569443_3_alg».proof.Proof.Gen.KernelIdeal.Frame
import proofs.«414875_j5703716569443_3_alg».proof.Proof.Spec

noncomputable section

namespace Cert.NgramConv.Kern

open Idealize.ShloMosaic Idealize.ShloMosaic.TcCoe Idealize.ShloMosaic.ValueIdx Idealize.SL.Sem Cert.KernelIdeal Cert.KernelIdeal.Gen
open Idealize.ShloMosaic.Pipeline (Dat)

variable (m : (ℓ : Loc nD τ sig) → Buf (Elt Ideal) ℓ)

/-! ## The block indices, over the grid -/

/-- The token window's block index at point t: (t / 15, 0, 0). -/
theorem idx0 : ∀ t : Fin cfg0.N, win0_0.index t 0 = t.val / 15 ∧ win0_0.index t 1 = 0 ∧ win0_0.index t 2 = 0 :=
  (by decide +kernel : ∀ t : Fin grid0.N, win0_0.index t 0 = t.val / 15 ∧ win0_0.index t 1 = 0 ∧ win0_0.index t 2 = 0)

/-- The table window's block index at point t: (t % 15, 0). -/
theorem idx1 : ∀ t : Fin cfg0.N, win0_1.index t 0 = t.val % 15 ∧ win0_1.index t 1 = 0 :=
  (by decide +kernel : ∀ t : Fin grid0.N, win0_1.index t 0 = t.val % 15 ∧ win0_1.index t 1 = 0)

/-- The weight window's block index is (0, 0) at every point. -/
theorem idx2 : ∀ t : Fin cfg0.N, win0_2.index t 0 = 0 ∧ win0_2.index t 1 = 0 :=
  (by decide +kernel : ∀ t : Fin grid0.N, win0_2.index t 0 = 0 ∧ win0_2.index t 1 = 0)

/-- The bias window's block index is (0, 0) at every point. -/
theorem idx3 : ∀ t : Fin cfg0.N, win0_3.index t 0 = 0 ∧ win0_3.index t 1 = 0 :=
  (by decide +kernel : ∀ t : Fin grid0.N, win0_3.index t 0 = 0 ∧ win0_3.index t 1 = 0)

/-! ## The blocks read at a coordinate -/

/-- The token block at point t is row t / 15 of the [32, 2560, 1] array. -/
theorem iblk0_apply (c : Dev nD) (t : Fin cfg0.N) (r : Fin 2560) :
    (iblk m c 0 t : Vec Ideal S1x2560x1 .i32) (ix3 0 r 0)
      = (V m c main_v11 : Vec Ideal S32x2560x1 .i32) (ix3 ⟨t.val / 15, by have := t.isLt; have : cfg0.N = 480 := N_0; omega⟩ r 0) := by
  unfold iblk
  rw [View.read_apply]
  show V m c main_v11 _ = V m c main_v11 _
  congr 1
  funext a
  apply Fin.ext
  match a with
  | ⟨0, _⟩ => show win0_0.index t 0 * 1 + 1 * 0 = t.val / 15; rw [(idx0 t).1]; omega
  | ⟨1, _⟩ => show win0_0.index t 1 * 2560 + 1 * r.val = r.val; rw [(idx0 t).2.1]; omega
  | ⟨2, _⟩ => show win0_0.index t 2 * 1 + 1 * 0 = 0; rw [(idx0 t).2.2]

/-- The table block at point t is rows 2000 · (t % 15) … of the [30000, 640] array. -/
theorem iblk1_apply (c : Dev nD) (t : Fin cfg0.N) (k : Fin 2000) (col : Fin 640) :
    (iblk m c 1 t : Vec Ideal S2000x640 .bf16) (ix2 k col)
      = (V m c main_v7 : Vec Ideal S30000x640 .bf16) (ix2 ⟨2000 * (t.val % 15) + k.val, by have := k.isLt; omega⟩ col) := by
  unfold iblk
  rw [View.read_apply]
  show V m c main_v7 _ = V m c main_v7 _
  congr 1
  funext a
  apply Fin.ext
  match a with
  | ⟨0, _⟩ => show win0_1.index t 0 * 2000 + 1 * k.val = 2000 * (t.val % 15) + k.val; rw [(idx1 t).1]; omega
  | ⟨1, _⟩ => show win0_1.index t 1 * 640 + 1 * col.val = col.val; rw [(idx1 t).2]; omega

/-- The weight block at every point is the whole [128, 4] array. -/
theorem iblk2_apply (c : Dev nD) (t : Fin cfg0.N) (o : Fin 128) (j : Fin 4) :
    (iblk m c 2 t : Vec Ideal S128x4 .bf16) (ix2 o j) = (V m c main_v9 : Vec Ideal S128x4 .bf16) (ix2 o j) := by
  unfold iblk
  rw [View.read_apply]
  show V m c main_v9 _ = V m c main_v9 _
  congr 1
  funext a
  apply Fin.ext
  match a with
  | ⟨0, _⟩ => show win0_2.index t 0 * 128 + 1 * o.val = o.val; rw [(idx2 t).1]; omega
  | ⟨1, _⟩ => show win0_2.index t 1 * 4 + 1 * j.val = j.val; rw [(idx2 t).2]; omega

/-- The bias block at every point is the whole [1, 4] array. -/
theorem iblk3_apply (c : Dev nD) (t : Fin cfg0.N) (j : Fin 4) :
    (iblk m c 3 t : Vec Ideal S1x4 .f32) (ix2 0 j) = (V m c main_v10 : Vec Ideal S1x4 .f32) (ix2 0 j) := by
  unfold iblk
  rw [View.read_apply]
  show V m c main_v10 _ = V m c main_v10 _
  congr 1
  funext a
  apply Fin.ext
  match a with
  | ⟨0, _⟩ => show win0_3.index t 0 * 1 + 1 * 0 = 0; rw [(idx3 t).1]
  | ⟨1, _⟩ => show win0_3.index t 1 * 4 + 1 * j.val = j.val; rw [(idx3 t).2]; omega

end Cert.NgramConv.Kern

end
-- ==== Proof.Invariant.lean ====
/-
  The accumulator across a batch entry's vocabulary tiles, and what its last tile leaves in the output block.

  Fix a batch entry b. Row r of the accumulator belongs to the id at position r of b's sequence. After the tile vt the
  accumulator's row r holds the table row of that id — tap w's weights in columns 128 * w + o — if the id lies below
  2000 * (vt + 1), and zeros otherwise: each tile adds the one-hot product, which is the id's row when the id lies in
  the tile and zero when it does not. After the last tile (2000 * 15 = 30000 exceeds every id) every row holds its id's
  table row, so tap w's column block read from row p + w on is the tap's weight at position p, and the body's
  pooled, affinely mapped result is the specification's.
-/
import proofs.«414875_j5703716569443_3_alg».proof.Proof.Pieces
import proofs.«414875_j5703716569443_3_alg».proof.Proof.Pay2
import proofs.«414875_j5703716569443_3_alg».proof.Proof.Pay3
import proofs.«414875_j5703716569443_3_alg».proof.Proof.OneHot
import proofs.«414875_j5703716569443_3_alg».proof.Proof.HostPrefix
import proofs.«414875_j5703716569443_3_alg».proof.Proof.BlockReads

set_option maxRecDepth 16384

noncomputable section

namespace Cert.NgramConv.Kern

open Idealize.ShloMosaic Idealize.ShloMosaic.TcCoe Idealize.ShloMosaic.ValueIdx Idealize.SL.Sem Cert.KernelIdeal Cert.KernelIdeal.Gen
open Cert.NgramConv

/-! ## One tile's step, over plain values -/

/-- An id in the table's range is its own row. -/
theorem toNat_lt_of_range (x : BitVec 32) (h0 : 0 ≤ x.toInt) (h1 : x.toInt < 30000) : x.toNat < 30000 := by
  have h := BitVec.toInt_eq_toNat_cond x
  split_ifs at h <;> omega

theorem rowOf_eq (x : BitVec 32) (h : x.toNat < 30000) : rowOf x = ⟨x.toNat, h⟩ :=
  Fin.ext (Nat.mod_eq_of_lt h)

/-- The body's accumulation at tile vt: rows whose id lies below 2000 * vt hold the id's row already; the tile adds the
    rows whose id lies in it. -/
theorem acc_step (i : grid0.Coords) (vt : ℕ) (hi : (i 1).val = vt) (hvt : vt < 15)
    (ids : Vec Ideal S1x2560x1 .i32) (acc : Vec Ideal S2560x640 .f32) (tile : Vec Ideal S2000x640 .bf16)
    (idr : Fin 2560 → BitVec 32) (kc : Fin 640 → Fin 30000 → EReal)
    (hids : ∀ r, ids (ix3 0 r 0) = idr r) (hid : ∀ r, (idr r).toNat < 30000)
    (htile : ∀ (k : Fin 2000) (col : Fin 640), tile (ix2 k col) = kc col ⟨2000 * vt + k.val, by have := k.isLt; omega⟩)
    (hacc : ∀ r col, acc (ix2 r col) = if (idr r).toNat < 2000 * vt then kc col ⟨(idr r).toNat, hid r⟩ else 0)
    (r : Fin 2560) (col : Fin 640) :
    k0_pay2 (F := Ideal) i ids acc tile (ix2 r col)
      = if (idr r).toNat < 2000 * (vt + 1) then kc col ⟨(idr r).toNat, hid r⟩ else 0 := by
  rw [pay2_apply, hids, hi]
  exact tile_step (idr r) vt hvt (hid r) (kc col) (fun k => tile (ix2 k col)) (fun k => htile k col) _ (hacc r col)

/-- The zero block the first tile stores. -/
theorem pay1_apply (y : S2560x640.Idx) : k0_pay1 (F := Ideal) y = 0 := by
  unfold k0_pay1
  show Ideal.ofBits .f32 0x00000000#32 = 0
  exact Ideal.ofBits_zero_f32

/-! ## Along the grid -/

variable (m : (ℓ : Loc nD τ sig) → Buf (Elt Ideal) ℓ)

/-- The grid's coordinates at point t: batch entry t / 15, vocabulary tile t % 15. -/
theorem coords_eq : ∀ t : Fin cfg0.N, (grid0.coords t 0).val = t.val / 15 ∧ (grid0.coords t 1).val = t.val % 15 :=
  (by decide +kernel : ∀ t : Fin grid0.N, (grid0.coords t 0).val = t.val / 15 ∧ (grid0.coords t 1).val = t.val % 15)

/-- The input blocks and the carried accumulator, named at their literal types. -/
abbrev idsBlk (c : Dev nD) (t : Fin cfg0.N) : Vec Ideal S1x2560x1 .i32 := iblk m c 0 t
abbrev tileBlk (c : Dev nD) (t : Fin cfg0.N) : Vec Ideal S2000x640 .bf16 := iblk m c 1 t
abbrev fcwBlk (c : Dev nD) (t : Fin cfg0.N) : Vec Ideal S128x4 .bf16 := iblk m c 2 t
abbrev fcbBlk (c : Dev nD) (t : Fin cfg0.N) : Vec Ideal S1x4 .f32 := iblk m c 3 t
abbrev accAt (c : Dev nD) (n : ℕ) (h : n < cfg0.N) : Vec Ideal S2560x640 .f32 := (outsAt0 m c n h).2
abbrev outAt (c : Dev nD) (n : ℕ) (h : n < cfg0.N) : Vec Ideal S1x1x4 .f32 := (outsAt0 m c n h).1

/-- The arguments. -/
abbrev tokA (c : Dev nD) : IVec STok 32 := m ((c : Thread nD τ).loc main_arg0)
abbrev tabA (c : Dev nD) : FVec Ideal STab .f32 := m ((c : Thread nD τ).loc main_arg1)
abbrev wA (c : Dev nD) : FVec Ideal SW .f32 := m ((c : Thread nD τ).loc main_arg2)
abbrev bA (c : Dev nD) : FVec Ideal SB .f32 := m ((c : Thread nD τ).loc main_arg3)

/-- The tap-concatenated table as the region finds it: column col of vocabulary row v. -/
abbrev kcat (c : Dev nD) (col : Fin 640) (v : Fin 30000) : EReal := (V m c main_v7 : S30000x640.Idx → EReal) (ix2 v col)

/-- The id that row r of the accumulator belongs to at grid position n. -/
abbrev idRow (c : Dev nD) (n : ℕ) (h : n < cfg0.N) (r : Fin 2560) : BitVec 32 :=
  idAt (tokA m c) ⟨n / 15, by have : cfg0.N = 480 := N_0; omega⟩ r

theorem idRow_lt (c : Dev nD) (hr : InRange (tokA m c)) (n : ℕ) (h : n < cfg0.N) (r : Fin 2560) : (idRow m c n h r).toNat < 30000 :=
  toNat_lt_of_range _ (hr _).1 (hr _).2

theorem idsBlk_apply (c : Dev nD) (hr : InRange (tokA m c)) (n : ℕ) (h : n < cfg0.N) (r : Fin 2560) :
    idsBlk m c ⟨n, h⟩ (ix3 0 r 0) = idRow m c n h r :=
  (iblk0_apply m c ⟨n, h⟩ r).trans (ids_eq m c hr _ r)

theorem tileBlk_apply (c : Dev nD) (n : ℕ) (h : n < cfg0.N) (k : Fin 2000) (col : Fin 640) :
    tileBlk m c ⟨n, h⟩ (ix2 k col) = kcat m c col ⟨2000 * (n % 15) + k.val, by have := k.isLt; omega⟩ :=
  iblk1_apply m c ⟨n, h⟩ k col

/-- THE ACCUMULATOR after the point at position n: row r holds its id's table row if the id lies below
    2000 * (n % 15 + 1), zeros otherwise. By induction along the grid. -/
theorem accAt_apply (c : Dev nD) (hr : InRange (tokA m c)) : ∀ (n : ℕ) (h : n < cfg0.N) (r : Fin 2560) (col : Fin 640),
    accAt m c n h (ix2 r col)
      = if (idRow m c n h r).toNat < 2000 * (n % 15 + 1) then kcat m c col ⟨(idRow m c n h r).toNat, idRow_lt m c hr n h r⟩ else 0
  | 0, h, r, col => by
    have hN : cfg0.N = 480 := N_0
    show (outsAt0 m c 0 h).2 (ix2 r col) = _
    rw [outsAt0_A m c ⟨0, h⟩ rfl (by show ¬(0 % 15 = 14); omega)]
    dsimp only
    refine (congrFun (sout_A (F := Ideal) c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) scM0_0 (Memref.isWhole_whole _) _ _ (idsBlk m c ⟨0, h⟩) (tileBlk m c ⟨0, h⟩) (fcwBlk m c ⟨0, h⟩) (fcbBlk m c ⟨0, h⟩)) (ix2 r col)).trans ?_
    exact acc_step (grid0.coords ⟨0, h⟩) 0 (coords_eq ⟨0, h⟩).2 (by decide) (idsBlk m c ⟨0, h⟩) (k0_pay1 (F := Ideal)) (tileBlk m c ⟨0, h⟩)
      (idRow m c 0 h) (kcat m c) (idsBlk_apply m c hr 0 h) (idRow_lt m c hr 0 h) (tileBlk_apply m c 0 h)
      (fun r col => by rw [pay1_apply, if_neg (by omega)]) r col
  | n + 1, h, r, col => by
    have hN : cfg0.N = 480 := N_0
    have hco := coords_eq ⟨n + 1, h⟩
    show (outsAt0 m c (n + 1) h).2 (ix2 r col) = _
    by_cases h0 : (n + 1) % 15 = 0
    · have h1 : ¬(n + 1) % 15 = 14 := by omega
      rw [outsAt0_A m c ⟨n + 1, h⟩ h0 h1]
      dsimp only
      refine (congrFun (sout_A (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) scM0_0 (Memref.isWhole_whole _) _ _ (idsBlk m c ⟨n + 1, h⟩) (tileBlk m c ⟨n + 1, h⟩) (fcwBlk m c ⟨n + 1, h⟩) (fcbBlk m c ⟨n + 1, h⟩)) (ix2 r col)).trans ?_
      rw [h0]
      exact acc_step (grid0.coords ⟨n + 1, h⟩) 0 (hco.2.trans h0) (by decide) (idsBlk m c ⟨n + 1, h⟩) (k0_pay1 (F := Ideal)) (tileBlk m c ⟨n + 1, h⟩)
        (idRow m c (n + 1) h) (kcat m c) (idsBlk_apply m c hr (n + 1) h) (idRow_lt m c hr (n + 1) h)
        (fun k col => (tileBlk_apply m c (n + 1) h k col).trans (congrArg (kcat m c col) (Fin.ext (by show 2000 * ((n + 1) % 15) + k.val = 2000 * 0 + k.val; rw [h0]))))
        (fun r col => by rw [pay1_apply, if_neg (by omega)]) r col
    · have hprev : ∀ r col, accAt m c n (Nat.lt_of_succ_lt h) (ix2 r col)
          = if (idRow m c (n + 1) h r).toNat < 2000 * ((n + 1) % 15) then kcat m c col ⟨(idRow m c (n + 1) h r).toNat, idRow_lt m c hr (n + 1) h r⟩ else 0 := by
        intro r col
        have hb : n / 15 = (n + 1) / 15 := by omega
        have hv : n % 15 + 1 = (n + 1) % 15 := by omega
        have hrow : idRow m c n (Nat.lt_of_succ_lt h) r = idRow m c (n + 1) h r := by
          show idAt _ _ r = idAt _ _ r
          congr 1
          exact Fin.ext hb
        rw [accAt_apply c hr n (Nat.lt_of_succ_lt h) r col, hv]
        simp only [hrow]
      by_cases h1 : (n + 1) % 15 = 14
      · rw [outsAt0_C m c ⟨n + 1, h⟩ h0 h1]
        dsimp only
        refine (congrFun (sout_C (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) scM0_0 (Memref.isWhole_whole _) _ _ (idsBlk m c ⟨n + 1, h⟩) (tileBlk m c ⟨n + 1, h⟩) (fcwBlk m c ⟨n + 1, h⟩) (fcbBlk m c ⟨n + 1, h⟩) (accAt m c n (Nat.lt_of_succ_lt h))) (ix2 r col)).trans ?_
        exact acc_step (grid0.coords ⟨n + 1, h⟩) ((n + 1) % 15) hco.2 (by omega) (idsBlk m c ⟨n + 1, h⟩) (accAt m c n (Nat.lt_of_succ_lt h)) (tileBlk m c ⟨n + 1, h⟩)
          (idRow m c (n + 1) h) (kcat m c) (idsBlk_apply m c hr (n + 1) h) (idRow_lt m c hr (n + 1) h) (tileBlk_apply m c (n + 1) h) hprev r col
      · rw [outsAt0_B m c ⟨n + 1, h⟩ h0 h1]
        dsimp only
        refine (congrFun (sout_B (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) scM0_0 (Memref.isWhole_whole _) _ _ (idsBlk m c ⟨n + 1, h⟩) (tileBlk m c ⟨n + 1, h⟩) (fcwBlk m c ⟨n + 1, h⟩) (fcbBlk m c ⟨n + 1, h⟩) (accAt m c n (Nat.lt_of_succ_lt h))) (ix2 r col)).trans ?_
        exact acc_step (grid0.coords ⟨n + 1, h⟩) ((n + 1) % 15) hco.2 (by omega) (idsBlk m c ⟨n + 1, h⟩) (accAt m c n (Nat.lt_of_succ_lt h)) (tileBlk m c ⟨n + 1, h⟩)
          (idRow m c (n + 1) h) (kcat m c) (idsBlk_apply m c hr (n + 1) h) (idRow_lt m c hr (n + 1) h) (tileBlk_apply m c (n + 1) h) hprev r col

end Cert.NgramConv.Kern

end
-- ==== Proof.LastTile.lean ====
/-
  The last vocabulary tile of a batch entry: the output block is the specification's row.

  After the last tile every accumulator row holds its id's table row. Tap w's column block read from row p + w on is then
  the table at (o, id(b, p + w), 0, w): the tap's weight at position p. The body adds the five taps in tap order, clips
  below at zero, takes the maximum over the positions and applies the affine layer: the specification's out at (b, j).
-/
import proofs.«414875_j5703716569443_3_alg».proof.Proof.Invariant

set_option maxRecDepth 16384

noncomputable section

namespace Cert.NgramConv.Kern

open Idealize.ShloMosaic Idealize.ShloMosaic.TcCoe Idealize.ShloMosaic.ValueIdx Idealize.SL.Sem Cert.KernelIdeal Cert.KernelIdeal.Gen
open Cert.NgramConv

variable (m : (ℓ : Loc nD τ sig) → Buf (Elt Ideal) ℓ)

/-- Column 128 * w + o of the tap-concatenated table is tap w's weight for channel o. -/
theorem kcat_tap (c : Dev nD) (v : Fin 30000) (w : Fin 5) (o : Fin 128) (col : Fin 640) (hcol : col.val = 128 * w.val + o.val) :
    kcat m c col v = tabA m c (ix4 o v 0 w) := by
  have e : col = ⟨w.val * 128 + o.val, by have := w.isLt; have := o.isLt; omega⟩ := Fin.ext (by show col.val = w.val * 128 + o.val; omega)
  rw [e]
  exact kcat_eq m c v w o

/-- The table row of the id w places after p, read in tap w's column block, is the specification's tap. -/
theorem tap_eq (c : Dev nD) (n : ℕ) (h : n < cfg0.N) (p : Fin 2556) (o : Fin 128) (w : Fin 5) (r : Fin 2560)
    (hr' : r.val = p.val + w.val) (col : Fin 640) (hcol : col.val = 128 * w.val + o.val) :
    kcat m c col (rowOf (idRow m c n h r))
      = tap (tokA m c) (tabA m c) ⟨n / 15, by have : cfg0.N = 480 := N_0; omega⟩ p o w := by
  rw [kcat_tap m c _ w o col hcol]
  unfold tap
  have e : r = ⟨p.val + w.val, by have := p.isLt; have := w.isLt; omega⟩ := Fin.ext hr'
  rw [e]

/-- The accumulator the last tile leaves is the body's accumulation over what the tile before left. -/
theorem accAt_last (c : Dev nD) (k : ℕ) (h : k + 1 < cfg0.N) (h0 : ¬(k + 1) % 15 = 0) (h14 : (k + 1) % 15 = 14) :
    accAt m c (k + 1) h
      = k0_pay2 (F := Ideal) (grid0.coords ⟨k + 1, h⟩) (idsBlk m c ⟨k + 1, h⟩) (accAt m c k (Nat.lt_of_succ_lt h)) (tileBlk m c ⟨k + 1, h⟩) := by
  show (outsAt0 m c (k + 1) h).2 = _
  rw [outsAt0_C m c ⟨k + 1, h⟩ h0 h14]
  dsimp only
  exact sout_C (F := Ideal) c (grid0.coords ⟨k + 1, h⟩) (ms0_0 ⟨k + 1, h⟩) (hs0_0 ⟨k + 1, h⟩) (ms0_1 ⟨k + 1, h⟩) (hs0_1 ⟨k + 1, h⟩) (ms0_2 ⟨k + 1, h⟩) (hs0_2 ⟨k + 1, h⟩) (ms0_3 ⟨k + 1, h⟩) (hs0_3 ⟨k + 1, h⟩) (ms0_4 ⟨k + 1, h⟩) (hs0_4 ⟨k + 1, h⟩) scM0_0 (Memref.isWhole_whole _) _ _ (idsBlk m c ⟨k + 1, h⟩) (tileBlk m c ⟨k + 1, h⟩) (fcwBlk m c ⟨k + 1, h⟩) (fcbBlk m c ⟨k + 1, h⟩) (accAt m c k (Nat.lt_of_succ_lt h))

/-- THE OUTPUT BLOCK a batch entry's last tile leaves: the specification's row of that batch entry. -/
theorem outAt_apply (c : Dev nD) (hr : InRange (tokA m c)) (n : ℕ) (h : n < cfg0.N) (h14 : n % 15 = 14) (j : Fin 4) :
    outAt m c n h (ix3 0 0 j)
      = out (tokA m c) (tabA m c) (wA m c) (bA m c) (ix2 ⟨n / 15, by have : cfg0.N = 480 := N_0; omega⟩ j) := by
  obtain ⟨k, rfl⟩ : ∃ k, n = k + 1 := ⟨n - 1, by omega⟩
  have h0 : ¬(k + 1) % 15 = 0 := by omega
  -- every accumulator row holds its id's table row
  have hS : ∀ (r : Fin 2560) (col : Fin 640),
      k0_pay2 (F := Ideal) (grid0.coords ⟨k + 1, h⟩) (idsBlk m c ⟨k + 1, h⟩) (accAt m c k (Nat.lt_of_succ_lt h)) (tileBlk m c ⟨k + 1, h⟩) (ix2 r col)
        = kcat m c col (rowOf (idRow m c (k + 1) h r)) := by
    intro r col
    rw [← accAt_last m c k h h0 h14, accAt_apply m c hr (k + 1) h r col, h14, if_pos (by have := idRow_lt m c hr (k + 1) h r; omega),
      rowOf_eq _ (idRow_lt m c hr (k + 1) h r)]
  show (outsAt0 m c (k + 1) h).1 (ix3 0 0 j) = _
  rw [outsAt0_C m c ⟨k + 1, h⟩ h0 h14]
  dsimp only
  refine (congrFun (out_C (F := Ideal) c (grid0.coords ⟨k + 1, h⟩) (ms0_0 ⟨k + 1, h⟩) (hs0_0 ⟨k + 1, h⟩) (ms0_1 ⟨k + 1, h⟩) (hs0_1 ⟨k + 1, h⟩) (ms0_2 ⟨k + 1, h⟩) (hs0_2 ⟨k + 1, h⟩) (ms0_3 ⟨k + 1, h⟩) (hs0_3 ⟨k + 1, h⟩) (ms0_4 ⟨k + 1, h⟩) (hs0_4 ⟨k + 1, h⟩) scM0_0 (Memref.isWhole_whole _) _ _ (idsBlk m c ⟨k + 1, h⟩) (tileBlk m c ⟨k + 1, h⟩) (fcwBlk m c ⟨k + 1, h⟩) (fcbBlk m c ⟨k + 1, h⟩) (accAt m c k (Nat.lt_of_succ_lt h))) (ix3 0 0 j)).trans ?_
  rw [pay3_apply]
  unfold out
  refine congrArg₂ (· + ·) (Finset.sum_congr rfl fun o _ => congrArg₂ (· * ·) ?_ ?_) ?_
  · unfold pooled
    refine congrArg (fun f => Finset.fold max (Ideal.ofBits .f32 0xFF800000#32) f Finset.univ) (funext fun p => congrArg (fun x => max x (Ideal.ofBits .f32 0x00000000#32)) ?_)
    unfold conv
    rw [col0_apply, col1_apply, col2_apply, col3_apply, col4_apply, hS, hS, hS, hS, hS]
    exact congrArg₂ (· + ·) (congrArg₂ (· + ·) (congrArg₂ (· + ·) (congrArg₂ (· + ·)
      (tap_eq m c (k + 1) h p o 0 _ rfl _ (by show o.val = 128 * 0 + o.val; omega))
      (tap_eq m c (k + 1) h p o 1 _ rfl _ (by show 128 + o.val = 128 * 1 + o.val; omega)))
      (tap_eq m c (k + 1) h p o 2 _ rfl _ (by show 256 + o.val = 128 * 2 + o.val; omega)))
      (tap_eq m c (k + 1) h p o 3 _ rfl _ (by show 384 + o.val = 128 * 3 + o.val; omega)))
      (tap_eq m c (k + 1) h p o 4 _ rfl _ (by show 512 + o.val = 128 * 4 + o.val; omega))
  · exact (iblk2_apply m c ⟨k + 1, h⟩ o j).trans (fcw_eq m c o j)
  · exact (iblk3_apply m c ⟨k + 1, h⟩ j).trans (fcb_eq m c j)

end Cert.NgramConv.Kern

end
-- ==== Proof.OutArray.lean ====
/-
  From the output block to the result. The output window's block at point t is row t / 15 of the [32, 1, 4] array, and
  it is written back exactly at the points t with t % 15 = 14, the last vocabulary tile of each batch entry. Row b of
  the array is covered by point 15 b + 14, so the array ends holding, in row b, what that point leaves in the block.
  The one operation after the region is the reshape [32, 1, 4] → [32, 4], which reads entry (b, j) at (b, 0, j): the
  same row-major position 4 b + j.
-/
import proofs.«414875_j5703716569443_3_alg».proof.Proof.Gen.KernelIdeal.Frame
import proofs.«414875_j5703716569443_3_alg».proof.Proof.Spec
import Idealize.ShloMosaic.Lib.Pipeline.Value
import Idealize.ShloMosaic.Lib.StableHlo.Run

noncomputable section

namespace Cert.NgramConv.Kern

open Idealize.ShloMosaic Idealize.ShloMosaic.TcCoe Idealize.ShloMosaic.ValueIdx Idealize.SL.Sem Cert.KernelIdeal Cert.KernelIdeal.Gen
open Idealize.ShloMosaic.Pipeline (Dat)

variable (m : (ℓ : Loc nD τ sig) → Buf (Elt Ideal) ℓ)

/-! ## The output window's blocks tile the array by rows -/

/-- The output window's block index at point t: (t / 15, 0, 0). -/
theorem idx4 : ∀ t : Fin cfg0.N, win0_4.index t 0 = t.val / 15 ∧ win0_4.index t 1 = 0 ∧ win0_4.index t 2 = 0 :=
  (by decide +kernel : ∀ t : Fin grid0.N, win0_4.index t 0 = t.val / 15 ∧ win0_4.index t 1 = 0 ∧ win0_4.index t 2 = 0)

/-- An index of a [1, 1, 4] block is (0, 0, its last coordinate). -/
theorem blockIdx_eq (y : S1x1x4.Idx) : y = ix3 0 0 (y 2) := by
  funext a
  match a with
  | ⟨0, _⟩ => exact Subsingleton.elim (α := Fin 1) _ _
  | ⟨1, _⟩ => exact Subsingleton.elim (α := Fin 1) _ _
  | ⟨2, _⟩ => rfl

/-- The array ends holding G when every writing point leaves row t / 15 of G in the block. -/
theorem arr4_eq (c : Dev nD) (G : Vec Ideal S32x1x4 .f32)
    (hout : ∀ (t : Fin cfg0.N), t.val % 15 = 14 → ∀ j : Fin 4, (outsAt0 m c t.val t.isLt).1 (ix3 0 0 j) = G (ix3 ⟨t.val / 15, by have := t.isLt; have : cfg0.N = 480 := N_0; omega⟩ 0 j)) :
    (dats m 0 c).arrAt 4 cfg0.N = G := by
  have hN : cfg0.N = 480 := N_0
  refine (dats m 0 c).arrAt_eq_of_cover 4 G ?_ ?_
  · -- what a writing point writes back is its block of G
    intro t hf
    have h14 : t.val % 15 = 14 := (flush0_4 t).mp hf
    show (cfg0.win 4).cut (grid0.coords t) ((dats m 0 c).after 4 t) = _
    rw [after0_4]
    funext (y : S1x1x4.Idx)
    rw [View.read_apply]
    show (outsAt0 m c t.val t.isLt).1 _ = G _
    have hy0 : (y 0).val = 0 := by have : (y 0).val < 1 := (y 0).isLt; omega
    have hy1 : (y 1).val = 0 := by have : (y 1).val < 1 := (y 1).isLt; omega
    refine (congrArg (outsAt0 m c t.val t.isLt).1 ?_).trans ((hout t h14 (y 2)).trans (congrArg G ?_))
    · exact blockIdx_eq y
    · funext a
      apply Fin.ext
      match a with
      | ⟨0, _⟩ => show t.val / 15 = win0_4.index t 0 * 1 + 1 * (y 0).val; rw [(idx4 t).1, hy0]; omega
      | ⟨1, _⟩ => show 0 = win0_4.index t 1 * 1 + 1 * (y 1).val; rw [(idx4 t).2.1, hy1]
      | ⟨2, _⟩ => show (y 2).val = win0_4.index t 2 * 4 + 1 * (y 2).val; rw [(idx4 t).2.2]; omega
  · -- row b is covered by the last point of batch entry b
    intro (i : S32x1x4.Idx)
    have hi0 : (i 0).val < 32 := (i 0).isLt
    have hi1 : (i 1).val < 1 := (i 1).isLt
    have hi2 : (i 2).val < 4 := (i 2).isLt
    let t : Fin cfg0.N := ⟨15 * (i 0).val + 14, by omega⟩
    have ht : t.val = 15 * (i 0).val + 14 := rfl
    refine ⟨t, (flush0_4 t).mpr (by omega), ?_⟩
    show i ∈ ((View.whole main_v12).slice (win0_4.rect t)).set
    rw [View.set_slice_whole, Rect.mem_set_unit]
    intro a
    match a with
    | ⟨0, _⟩ => show win0_4.index t 0 * 1 ≤ (i 0).val ∧ (i 0).val < win0_4.index t 0 * 1 + 1
                rw [(idx4 t).1]; omega
    | ⟨1, _⟩ => show win0_4.index t 1 * 1 ≤ (i 1).val ∧ (i 1).val < win0_4.index t 1 * 1 + 1
                rw [(idx4 t).2.1]; omega
    | ⟨2, _⟩ => show win0_4.index t 2 * 4 ≤ (i 2).val ∧ (i 2).val < win0_4.index t 2 * 4 + 4
                rw [(idx4 t).2.2]; omega

/-! ## The reshape after the region, and the run -/

/-- The result of @main is the reshape of the output array: entry (b, j) is the array's entry (b, 0, j). -/
theorem result_eq (c : Dev nD) (G : Vec Ideal S32x1x4 .f32) (harr : (dats m 0 c).arrAt 4 cfg0.N = G) (b : Fin 32) (j : Fin 4) :
    (Pipeline.afterTail₀ cfgs (dats m) 0 (V0 m) [hostOps1] c main_v13 : Vec Ideal S32x4 .f32) (ix2 b j) = G (ix3 b 0 j) := by
  have e : (Pipeline.afterTail₀ cfgs (dats m) 0 (V0 m) [hostOps1] c main_v13 : Vec Ideal S32x4 .f32)
      = shapeCast S32x4 G shapeCasts_S32x1x4_S32x4 := by
    unfold Pipeline.afterTail₀
    show StableHlo.after hostOps1 _ (Proc.devRef .tc main_v13) = _
    after_results
    exact congrArg (fun X : Vec Ideal S32x1x4 .f32 => shapeCast S32x4 X shapeCasts_S32x1x4_S32x4)
      ((Pipeline.withArrays_arr spec0 launch0.win.arr_inj c _ _ 4).trans harr)
  rw [e]
  refine shapeCast_apply G shapeCasts_S32x1x4_S32x4 (ix2 b j) (ix3 b 0 j) ?_
  rw [Shape.rowMajor_val_three, Shape.rowMajor_val_two]
  show (b.val * 1 + 0) * 4 + j.val = b.val * 4 + j.val
  omega

/-- Every run of @main ends with its result at R and its four arguments as launched, when the tail's result is R. -/
theorem run_result (ρ : Dev nD → PrngReg) (R : (c : Dev nD) → Vec Ideal S32x4 .f32)
    (hR : ∀ c, (Pipeline.afterTail₀ cfgs (dats m) 0 (V0 m) [hostOps1] c main_v13 : Vec Ideal S32x4 .f32) = R c) :
    θ_run defs (onTc (τ := τ) (main (F := Ideal))) ⟨m, fun _ => 0, ρ⟩ (fun r => ∀ c : Dev nD,
      r.2.mem ((c.tc : Thread nD τ).loc main_v13) = R c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v13 (Pipeline.mem_restRefs_of main_v13 (by decide) (by decide))).trans (hR c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.NgramConv.Kern

end
-- ==== Proof.lean ====
/-
  The certificate's five claims.

  Both programs take a token array, an n-gram weight table, and an affine layer. On tokens that are rows of the table (the
  precondition's added conjuncts 0 ≤ tokens < 30000, beside the finiteness of the float inputs, which this proof does not
  need) both compute: per batch entry b, position p and channel o the sum over the five taps w of the table at
  (o, id(b, p + w), 0, w); that clipped below at zero and maximised over p; the result through the affine layer.

  The reference gathers the table rows by id, tap by tap. The kernel multiplies a one-hot encoding of the ids into the
  tap-concatenated table, one block of 2000 vocabulary rows per grid point, accumulating over the 15 blocks of a batch
  entry: in the extended reals 1 * x = x and 0 * x = 0 for every x, so each accumulator row ends at its id's table row
  exactly, and the last block's step reads the five taps off it, shifted by their tap offsets. The two runs therefore end
  at one function of the arguments (Cert.NgramConv.out). The three frames are the generated ones; the idealization
  rewrote nothing, so the preservation claim is trivial.
-/
import proofs.«414875_j5703716569443_3_alg».proof.Defs
import proofs.«414875_j5703716569443_3_alg».proof.Proof.Gen.Kernel
import proofs.«414875_j5703716569443_3_alg».proof.Proof.Gen.Kernel.Skeleton
import proofs.«414875_j5703716569443_3_alg».proof.Proof.Gen.Kernel.Launch
import proofs.«414875_j5703716569443_3_alg».proof.Proof.Gen.Kernel.Points
import proofs.«414875_j5703716569443_3_alg».proof.Proof.Gen.Kernel.Frame
import proofs.«414875_j5703716569443_3_alg».proof.Proof.Gen.KernelIdeal
import proofs.«414875_j5703716569443_3_alg».proof.Proof.Gen.KernelIdeal.Skeleton
import proofs.«414875_j5703716569443_3_alg».proof.Proof.Gen.KernelIdeal.Launch
import proofs.«414875_j5703716569443_3_alg».proof.Proof.Gen.KernelIdeal.Points
import proofs.«414875_j5703716569443_3_alg».proof.Proof.Gen.KernelIdeal.Frame
import proofs.«414875_j5703716569443_3_alg».proof.Proof.Gen.ReferenceIdeal
import proofs.«414875_j5703716569443_3_alg».proof.Proof.Gen.ReferenceIdeal.Run
import proofs.«414875_j5703716569443_3_alg».proof.Proof.Gen.ReferenceIdeal.Read
import proofs.«414875_j5703716569443_3_alg».proof.Proof.Gen.Pre_finite_inputs
import proofs.«414875_j5703716569443_3_alg».proof.Proof.PreRange
import proofs.«414875_j5703716569443_3_alg».proof.Proof.RefValue
import proofs.«414875_j5703716569443_3_alg».proof.Proof.LastTile
import proofs.«414875_j5703716569443_3_alg».proof.Proof.OutArray
import Idealize.ShloMosaic.Adequacy
import Idealize.ShloMosaic.Init

noncomputable section

namespace Cert.Proof

open Idealize.ShloMosaic Idealize.ShloMosaic.TcCoe Idealize.ShloMosaic.ValueIdx Idealize.SL.Sem
open Cert.NgramConv Cert.NgramConv.Kern

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- The kernel's result array, batch entry by batch entry, is the specification of the kernel's arguments: each batch
    entry's last grid point writes its row back, and the reshape after the call drops the unit axis. -/
theorem kernel_result (m : (ℓ : Loc Cert.KernelIdeal.nD Cert.KernelIdeal.τ Cert.KernelIdeal.sig) → Buf (Elt Ideal) ℓ)
    (c : Dev Cert.KernelIdeal.nD) (hr : InRange (tokA m c)) :
    (Pipeline.afterTail₀ Cert.KernelIdeal.cfgs (Cert.KernelIdeal.Gen.dats m) 0 (Cert.KernelIdeal.Gen.V0 m) [Cert.KernelIdeal.Gen.hostOps1] c Cert.KernelIdeal.main_v13 : Vec Ideal Cert.KernelIdeal.S32x4 .f32)
      = out (tokA m c) (tabA m c) (wA m c) (bA m c) := by
  funext i
  obtain ⟨b, j, rfl⟩ : ∃ b j, i = ix2 b j := ⟨i 0, i 1, eq_ix2 i⟩
  refine (result_eq m c (fun y => out (tokA m c) (tabA m c) (wA m c) (bA m c) (ix2 (y 0) (y 2))) (arr4_eq m c _ ?_) b j).trans rfl
  intro t h14 j'
  exact outAt_apply m c hr t.val t.isLt h14 j'

theorem algebraic : Cert.algebraic_KernelIdeal_ReferenceIdeal := by
  intro m ρ m' ρ' hpre hagree
  have hr : ∀ c, InRange (tokA m c) := fun c => inRange_of_pre _ _ _ _ (hpre c)
  refine ⟨fun c => out (tokA m c) (tabA m c) (wA m c) (bA m c), run_result m ρ _ (fun c => kernel_result m c (hr c)), ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v89_eq, (hagree c).1, (hagree c).2.1, (hagree c).2.2.1, (hagree c).2.2.2]
  exact Cert.NgramConv.Ref.ref_eq _ _ _ _ (hr c)

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
